-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S16x2048x1024 : Shape := ⟨3, ![16, 2048, 1024]⟩
abbrev S16 : Shape := ⟨1, ![16]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_

variable [Facts]

def fn {F : FTy → Type} [FloatOps F] (main_arg0 : FVec F S16x2048 .f32) (main_arg1 : FVec F S16x2048x1024 .f32) (main_arg2 : FVec F S16x2048 .f32) (main_arg3 : IVec S16 32) : IVec S_ 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_c : IVec S_ 1 := constantI S_ 1 1#1
  let main_v3 : IVec S_ 1 := (fun x v => Host.reduce IntOp.andi x v reducesTo_S16x2048_S_d0_1 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S16x2048 .f32 := Host.absf main_arg2
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  main_v13
-- ==== Kernel.lean ====
abbrev S16x2048 : Shape := ⟨2, ![16, 2048]⟩
abbrev S16x2048x1024 : Shape := ⟨3, ![16, 2048, 1024]⟩
abbrev S16 : Shape := ⟨1, ![16]⟩
abbrev S16x1 : Shape := ⟨2, ![16, 1]⟩
abbrev S8x512 : Shape := ⟨2, ![8, 512]⟩
abbrev S8x512x1024 : Shape := ⟨3, ![8, 512, 1024]⟩
abbrev S8x1 : Shape := ⟨2, ![8, 1]⟩
abbrev S8x512x1 : Shape := ⟨3, ![8, 512, 1]⟩
abbrev S8 : Shape := ⟨1, ![8]⟩
abbrev S_ : Shape := ⟨0, ![]⟩
abbrev S2049 : Shape := ⟨1, ![2049]⟩
abbrev S1x2049 : Shape := ⟨2, ![1, 2049]⟩
abbrev S16x2049 : Shape := ⟨2, ![16, 2049]⟩

abbrev nBuf : Space → Nat
  | .hbm => 70
  | .vmem => 12
  | .smem => 0
  | _ => 0

abbrev bufTy : (tb : Table) → Fin (tcTables nBuf tb) → BufTy
  | .hbm, ⟨0, _⟩ => ⟨S16x2048, .f32⟩
  | .hbm, ⟨1, _⟩ => ⟨S16x2048x1024, .f32⟩
  | .hbm, ⟨2, _⟩ => ⟨S16x2048, .f32⟩
  | .hbm, ⟨3, _⟩ => ⟨S16, .i32⟩
  | .hbm, ⟨4, _⟩ => ⟨S16x1, .f32⟩
  | .hbm, ⟨5, _⟩ => ⟨S16x1, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .i1⟩
  | .hbm, ⟨11, _⟩ => ⟨S_, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S2049, .i32⟩
  | .hbm, ⟨16, _⟩ => ⟨S1x2049, .i32⟩
  | .hbm, ⟨17, _⟩ => ⟨S16x1, .i1⟩
  | .hbm, ⟨18, _⟩ => ⟨S16x1, .f32⟩
  | .hbm, ⟨19, _⟩ => ⟨S1x2049, .f32⟩
  | .hbm, ⟨20, _⟩ => ⟨S16x2049, .f32⟩
  | .hbm, ⟨21, _⟩ => ⟨S16x2049, .f32⟩
  | .hbm, ⟨22, _⟩ => ⟨S16x2049, .i1⟩
  | .hbm, ⟨23, _⟩ => ⟨S16x2049, .i1⟩
  | .hbm, ⟨24, _⟩ => ⟨S16x2049, .i1⟩
  | .hbm, ⟨25, _⟩ => ⟨S16, .i1⟩
  | .hbm, ⟨26, _⟩ => ⟨S16x1, .i1⟩
  | .hbm, ⟨27, _⟩ => ⟨S_, .i32⟩
  | .hbm, ⟨28, _⟩ => ⟨S1x2049, .i32⟩
  | .hbm, ⟨29, _⟩ => ⟨S1x2049, .i1⟩
  | .hbm, ⟨30, _⟩ => ⟨S16x2049, .i1⟩
  | .hbm, ⟨31, _⟩ => ⟨S16x2049, .i1⟩
  | .hbm, ⟨32, _⟩ => ⟨S16x2049, .i1⟩
  | .hbm, ⟨33, _⟩ => ⟨S16x1, .f32⟩
  | .hbm, ⟨34, _⟩ => ⟨S_, .f32⟩
  | .hbm, ⟨35, _⟩ => ⟨S_, .f32⟩
  | .hbm, ⟨36, _⟩ => ⟨S16x2049, .f32⟩
  | .hbm, ⟨37, _⟩ => ⟨S16x2049, .f32⟩
  | .hbm, ⟨38, _⟩ => ⟨S16x2049, .f32⟩
  | .hbm, ⟨39, _⟩ => ⟨S16x2049, .f32⟩
  | .hbm, ⟨40, _⟩ => ⟨S16x2049, .f32⟩
  | .hbm, ⟨41, _⟩ => ⟨S16x2049, .f32⟩
  | .hbm, ⟨42, _⟩ => ⟨S16, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16x1, .f32⟩
  | .hbm, ⟨49, _⟩ => ⟨S1x2049, .f32⟩
  | .hbm, ⟨50, _⟩ => ⟨S16x2049, .f32⟩
  | .hbm, ⟨51, _⟩ => ⟨S16x2049, .f32⟩
  | .hbm, ⟨52, _⟩ => ⟨S16x2049, .i1⟩
  | .hbm, ⟨53, _⟩ => ⟨S1x2049, .f32⟩
  | .hbm, ⟨54, _⟩ => ⟨S1x2049, .f32⟩
  | .hbm, ⟨55, _⟩ => ⟨S1x2049, .i1⟩
  | .hbm, ⟨56, _⟩ => ⟨S16x2049, .i1⟩
  | .hbm, ⟨57, _⟩ => ⟨S16x2049, .i1⟩
  | .hbm, ⟨58, _⟩ => ⟨S_, .f32⟩
  | .hbm, ⟨59, _⟩ => ⟨S16x2049, .f32⟩
  | .hbm, ⟨60, _⟩ => ⟨S16x2049, .f32⟩
  | .hbm, ⟨61, _⟩ => ⟨S16x2049, .f32⟩
  | .hbm, ⟨62, _⟩ => ⟨S16x2049, .f32⟩
  | .hbm, ⟨63, _⟩ => ⟨S16x2049, .f32⟩
  | .hbm, ⟨64, _⟩ => ⟨S_, .f32⟩
  | .hbm, ⟨65, _⟩ => ⟨S16, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S8x512, .f32⟩
  | .local _ .vmem, ⟨1, _⟩ => ⟨S8x512, .f32⟩
  | .local _ .vmem, ⟨2, _⟩ => ⟨S8x512x1024, .f32⟩
  | .local _ .vmem, ⟨3, _⟩ => ⟨S8x512x1024, .f32⟩
  | .local _ .vmem, ⟨4, _⟩ => ⟨S8x512, .f32⟩
  | .local _ .vmem, ⟨5, _⟩ => ⟨S8x512, .f32⟩
  | .local _ .vmem, ⟨6, _⟩ => ⟨S8x1, .f32⟩
  | .local _ .vmem, ⟨7, _⟩ => ⟨S8x1, .f32⟩
  | .local _ .vmem, ⟨8, _⟩ => ⟨S8x1, .f32⟩
  | .local _ .vmem, ⟨9, _⟩ => ⟨S8x1, .f32⟩
  | .local _ .vmem, ⟨10, _⟩ => ⟨S8x1, .f32⟩
  | .local _ .vmem, ⟨11, _⟩ => ⟨S8x1, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_call2_v0 : Ref sig .tc := ⟨.hbm, 39, rfl⟩
abbrev main_call2_v1 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_19 : BitVec 32 := 0#32
  let v34 : BitVec 1 := Scalar.cmpi .ne v33 c0_i32_19
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x512x1024_S8x512x1_0_0_0 : ∀ a, (![0, 0, 0] : Fin 3 → Nat) a + S8x512x1.size a ≤ S8x512x1024.size a
  h_S8x512x1 : 0 < S8x512x1.numel
  shapeCasts_S8x512x1_S8x512 : S8x512x1.ShapeCasts S8x512
  natLt_1_32 : 1 < 32
  inb_S8x512_S8x512_0_0 : ∀ a, (![0, 0] : Fin 2 → Nat) a + S8x512.size a ≤ S8x512.size a
  h_S8x512 : 0 < S8x512.numel
  reduces_S8x512_S8 : S8x512.Reduces [1] S8
  shapeCasts_S8_S8x1 : S8.ShapeCasts S8x1
  shapeCasts_S16x1_S16 : S16x1.ShapeCasts S16
  bcast_S_S16 : S_.BroadcastsInDim S16 (![] : Fin 0 → Fin S16.rank)
  bcast_S2049_S1x2049_1 : S2049.BroadcastsInDim S1x2049 (![1] : Fin 1 → Fin S1x2049.rank)
  bcast_S16_S16x1_0 : S16.BroadcastsInDim S16x1 (![0] : Fin 1 → Fin S16x1.rank)
  bcast_S1x2049_S16x2049_0_1 : S1x2049.BroadcastsInDim S16x2049 (![0, 1] : Fin 2 → Fin S16x2049.rank)
  bcast_S16x1_S16x2049_0_1 : S16x1.BroadcastsInDim S16x2049 (![0, 1] : Fin 2 → Fin S16x2049.rank)
  bcast_S_S1x2049 : S_.BroadcastsInDim S1x2049 (![] : Fin 0 → Fin S1x2049.rank)
  bcast_S_S16x2049 : S_.BroadcastsInDim S16x2049 (![] : Fin 0 → Fin S16x2049.rank)
  reducesTo_S16_S_d0 : S16.ReducesTo [0] S_
  h_S_ : 0 < S_.numel
  reducesTo_S16x2049_S16_d1 : S16x2049.ReducesTo [1] S16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S16x2048.size a
  hwx0_0 : ∀ i : grid0.Coords, EltTy.bits .f32 = 32 ∨ (Rect.block (s := S16x2048) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x1024.size a ≤ S16x2048x1024.size a
  hwx0_1 : ∀ i : grid0.Coords, EltTy.bits .f32 = 32 ∨ (Rect.block (s := S16x2048x1024) S8x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S16x2048.size a
  hwx0_2 : ∀ i : grid0.Coords, EltTy.bits .f32 = 32 ∨ (Rect.block (s := S16x2048) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S16x1.size a
  hwx0_3 : ∀ i : grid0.Coords, EltTy.bits .f32 = 32 ∨ (Rect.block (s := S16x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S16x1.size a
  hwx0_4 : ∀ i : grid0.Coords, EltTy.bits .f32 = 32 ∨ (Rect.block (s := S16x1) S8x1.size (cc0_transform_4 i) (hinb0_4 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x2048 : Shape := ⟨2, ![16, 2048]⟩
abbrev S16x2048x1024 : Shape := ⟨3, ![16, 2048, 1024]⟩
abbrev S16 : Shape := ⟨1, ![16]⟩
abbrev S16x2048x1 : Shape := ⟨3, ![16, 2048, 1]⟩
abbrev S_ : Shape := ⟨0, ![]⟩
abbrev S2049 : Shape := ⟨1, ![2049]⟩
abbrev S1x2049 : Shape := ⟨2, ![1, 2049]⟩
abbrev S16x1 : Shape := ⟨2, ![16, 1]⟩
abbrev S16x2049 : Shape := ⟨2, ![16, 2049]⟩

abbrev nBuf : Space → Nat
  | .hbm => 80
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048x1024, .f32⟩
  | .hbm, ⟨2, _⟩ => ⟨S16x2048, .f32⟩
  | .hbm, ⟨3, _⟩ => ⟨S16, .i32⟩
  | .hbm, ⟨4, _⟩ => ⟨S16x2048x1, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .i1⟩
  | .hbm, ⟨12, _⟩ => ⟨S16x2048, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .i1⟩
  | .hbm, ⟨17, _⟩ => ⟨S16x2048, .i32⟩
  | .hbm, ⟨18, _⟩ => ⟨S_, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S_, .f32⟩
  | .hbm, ⟨24, _⟩ => ⟨S16, .f32⟩
  | .hbm, ⟨25, _⟩ => ⟨S_, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S2049, .i32⟩
  | .hbm, ⟨30, _⟩ => ⟨S1x2049, .i32⟩
  | .hbm, ⟨31, _⟩ => ⟨S16x1, .i1⟩
  | .hbm, ⟨32, _⟩ => ⟨S16x1, .i32⟩
  | .hbm, ⟨33, _⟩ => ⟨S16x2049, .i32⟩
  | .hbm, ⟨34, _⟩ => ⟨S16x2049, .i32⟩
  | .hbm, ⟨35, _⟩ => ⟨S16x2049, .i1⟩
  | .hbm, ⟨36, _⟩ => ⟨S16x2049, .i1⟩
  | .hbm, ⟨37, _⟩ => ⟨S16x2049, .i1⟩
  | .hbm, ⟨38, _⟩ => ⟨S16, .i1⟩
  | .hbm, ⟨39, _⟩ => ⟨S16x1, .i1⟩
  | .hbm, ⟨40, _⟩ => ⟨S_, .i32⟩
  | .hbm, ⟨41, _⟩ => ⟨S1x2049, .i32⟩
  | .hbm, ⟨42, _⟩ => ⟨S1x2049, .i1⟩
  | .hbm, ⟨43, _⟩ => ⟨S16x2049, .i1⟩
  | .hbm, ⟨44, _⟩ => ⟨S16x2049, .i1⟩
  | .hbm, ⟨45, _⟩ => ⟨S16x2049, .i1⟩
  | .hbm, ⟨46, _⟩ => ⟨S16x1, .f32⟩
  | .hbm, ⟨47, _⟩ => ⟨S_, .f32⟩
  | .hbm, ⟨48, _⟩ => ⟨S_, .f32⟩
  | .hbm, ⟨49, _⟩ => ⟨S16x2049, .f32⟩
  | .hbm, ⟨50, _⟩ => ⟨S16x2049, .f32⟩
  | .hbm, ⟨51, _⟩ => ⟨S16x2049, .f32⟩
  | .hbm, ⟨52, _⟩ => ⟨S16x2049, .f32⟩
  | .hbm, ⟨53, _⟩ => ⟨S16x2049, .f32⟩
  | .hbm, ⟨54, _⟩ => ⟨S16x2049, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S16x1, .i32⟩
  | .hbm, ⟨61, _⟩ => ⟨S16x2049, .i32⟩
  | .hbm, ⟨62, _⟩ => ⟨S16x2049, .i32⟩
  | .hbm, ⟨63, _⟩ => ⟨S16x2049, .i1⟩
  | .hbm, ⟨64, _⟩ => ⟨S1x2049, .i32⟩
  | .hbm, ⟨65, _⟩ => ⟨S1x2049, .i1⟩
  | .hbm, ⟨66, _⟩ => ⟨S16x2049, .i1⟩
  | .hbm, ⟨67, _⟩ => ⟨S16x2049, .i1⟩
  | .hbm, ⟨68, _⟩ => ⟨S_, .f32⟩
  | .hbm, ⟨69, _⟩ => ⟨S16x2049, .f32⟩
  | .hbm, ⟨70, _⟩ => ⟨S16x2049, .f32⟩
  | .hbm, ⟨71, _⟩ => ⟨S16x2049, .f32⟩
  | .hbm, ⟨72, _⟩ => ⟨S16x2049, .f32⟩
  | .hbm, ⟨73, _⟩ => ⟨S16x2049, .f32⟩
  | .hbm, ⟨74, _⟩ => ⟨S_, .f32⟩
  | .hbm, ⟨75, _⟩ => ⟨S16, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_cst_7 : Ref sig .tc := ⟨.hbm, 48, rfl⟩
abbrev main_call1_v0 : Ref sig .tc := ⟨.hbm, 49, rfl⟩
abbrev main_call1_v1 : Ref sig .tc := ⟨.hbm, 50, rfl⟩
abbrev main_v33 : Ref sig .tc := ⟨.hbm, 51, rfl⟩
abbrev main_call2_v0 : Ref sig .tc := ⟨.hbm, 52, rfl⟩
abbrev main_call2_v1 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  slices_S16x2048x1024_S16x2048x1_0_0_0 : S16x2048x1024.Slices ![0, 0, 0] S16x2048x1
  shapeCasts_S16x2048x1_S16x2048 : S16x2048x1.ShapeCasts S16x2048
  bcast_S_S16x2048 : S_.BroadcastsInDim S16x2048 (![] : Fin 0 → Fin S16x2048.rank)
  natLt_1_32 : 1 < 32
  reducesTo_S16x2048_S16_d1 : S16x2048.ReducesTo [1] S16
  h_S_ : 0 < S_.numel
  bcast_S_S16 : S_.BroadcastsInDim S16 (![] : Fin 0 → Fin S16.rank)
  bcast_S2049_S1x2049_1 : S2049.BroadcastsInDim S1x2049 (![1] : Fin 1 → Fin S1x2049.rank)
  bcast_S16_S16x1_0 : S16.BroadcastsInDim S16x1 (![0] : Fin 1 → Fin S16x1.rank)
  bcast_S1x2049_S16x2049_0_1 : S1x2049.BroadcastsInDim S16x2049 (![0, 1] : Fin 2 → Fin S16x2049.rank)
  bcast_S16x1_S16x2049_0_1 : S16x1.BroadcastsInDim S16x2049 (![0, 1] : Fin 2 → Fin S16x2049.rank)
  bcast_S_S1x2049 : S_.BroadcastsInDim S1x2049 (![] : Fin 0 → Fin S1x2049.rank)
  bcast_S_S16x2049 : S_.BroadcastsInDim S16x2049 (![] : Fin 0 → Fin S16x2049.rank)
  reducesTo_S16_S_d0 : S16.ReducesTo [0] S_
  reducesTo_S16x2049_S16_d1 : S16x2049.ReducesTo [1] S16

variable [Facts₀]

class Facts : Prop extends Facts₀ where

variable [Facts]
-- ==== Proof.KernelCases.lean ====
import proofs.«143522_j90297392431840_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl

/-- The first column of a [8, 512, 1024] block of log-probabilities: the blank's. -/
abbrev blankRect : Rect S8x512x1024 := Rect.unit ![0, 0, 0] ![8, 512, 1] inb_S8x512x1024_S8x512x1_0_0_0

/-- One step of the count: the accumulator plus, per row, the number of spikes in the block. -/
def countStep (x1 : Vec F S8x512x1024 .f32) (x2 : Vec F S8x512 .f32) (a : Vec F S8x1 .f32) : Vec F S8x1 .f32 :=
  k0_pay3 (View.ld x1 blankRect) x2 a

/-- One step of the total: the accumulator plus, per row, the sum of the block of alpha. -/
def totalStep (x0 : Vec F S8x512 .f32) (a : Vec F S8x1 .f32) : Vec F S8x1 .f32 := k0_pay4 a x0

/-- The zero column the first tile of a row block starts from. -/
abbrev zeroCol : Vec F S8x1 .f32 := k0_pay1 (F := F)

theorem pay2_eq_pay1 : k0_pay2 (F := F) = k0_pay1 (F := F) := rfl

/-! Middle tiles: each carried accumulator takes one step. -/
theorem sout_B_0 (c : Dev nD) (i : grid0.Coords) (a2 : Memref sig .tc .vmem S8x512 .f32) (h2 : a2.IsWhole) (a3 : Memref sig .tc .vmem S8x512x1024 .f32) (h3 : a3.IsWhole) (a4 : Memref sig .tc .vmem S8x512 .f32) (h4 : a4.IsWhole) (a5 : Memref sig .tc .vmem S8x1 .f32) (h5 : a5.IsWhole) (a6 : Memref sig .tc .vmem S8x1 .f32) (h6 : a6.IsWhole) (a7 : Memref sig .tc .vmem S8x1 .f32) (h7 : a7.IsWhole) (a8 : Memref sig .tc .vmem S8x1 .f32) (h8 : a8.IsWhole) (hc0 : ¬cond0_0 i) (hc1 : ¬cond0_1 i) (x0 : Vec F S8x512 .f32) (x1 : Vec F S8x512x1024 .f32) (x2 : Vec F S8x512 .f32) (xs0 xs1 : Vec F S8x1 .f32) :
    sout0_B_0 c i a2 h2 a3 h3 a4 h4 a5 h5 a6 h6 a7 h7 a8 h8 hc0 hc1 x0 x1 x2 xs0 xs1 = countStep x1 x2 xs0 := by
  unfold sout0_B_0
  rw [View.read_writes_eq_canon _ _ _ (scover0_B_0 c i a2 h2 a3 h3 a4 h4 a5 h5 a6 h6 a7 h7 a8 h8 hc0 hc1 x0 x1 x2 xs0 xs1)]
  unfold kernelRun0_B
  dsimp only
  sl_unfold_words
  rw [View.canon_unit_zero hz2]
  simp only [View.readAt_eq_ld, h2.read_unread, h3.read_unread, h4.read_unread, h7.read_unread, h8.read_unread, View.ld_unit_zero (S := S8x512) hz2, View.ld_unit_zero (S := S8x1) hz2, View.readCov_unit_zero (S := S8x1) _ hz2]
  rfl

theorem sout_B_1 (c : Dev nD) (i : grid0.Coords) (a2 : Memref sig .tc .vmem S8x512 .f32) (h2 : a2.IsWhole) (a3 : Memref sig .tc .vmem S8x512x1024 .f32) (h3 : a3.IsWhole) (a4 : Memref sig .tc .vmem S8x512 .f32) (h4 : a4.IsWhole) (a5 : Memref sig .tc .vmem S8x1 .f32) (h5 : a5.IsWhole) (a6 : Memref sig .tc .vmem S8x1 .f32) (h6 : a6.IsWhole) (a7 : Memref sig .tc .vmem S8x1 .f32) (h7 : a7.IsWhole) (a8 : Memref sig .tc .vmem S8x1 .f32) (h8 : a8.IsWhole) (hc0 : ¬cond0_0 i) (hc1 : ¬cond0_1 i) (x0 : Vec F S8x512 .f32) (x1 : Vec F S8x512x1024 .f32) (x2 : Vec F S8x512 .f32) (xs0 xs1 : Vec F S8x1 .f32) :
    sout0_B_1 c i a2 h2 a3 h3 a4 h4 a5 h5 a6 h6 a7 h7 a8 h8 hc0 hc1 x0 x1 x2 xs0 xs1 = totalStep x0 xs1 := by
  unfold sout0_B_1
  rw [View.read_writes_eq_canon _ _ _ (scover0_B_1 c i a2 h2 a3 h3 a4 h4 a5 h5 a6 h6 a7 h7 a8 h8 hc0 hc1 x0 x1 x2 xs0 xs1)]
  unfold kernelRun0_B
  dsimp only
  sl_unfold_words
  rw [View.canon_unit_zero hz2]
  simp only [View.readAt_eq_ld, h2.read_unread, h3.read_unread, h4.read_unread, h7.read_unread, h8.read_unread, View.ld_unit_zero (S := S8x512) hz2, View.ld_unit_zero (S := S8x1) hz2, View.readCov_unit_zero (S := S8x1) _ hz2]
  rfl

/-! Last tile: the same step, and the outputs receive the stepped accumulators. -/
theorem sout_C_0 (c : Dev nD) (i : grid0.Coords) (a2 : Memref sig .tc .vmem S8x512 .f32) (h2 : a2.IsWhole) (a3 : Memref sig .tc .vmem S8x512x1024 .f32) (h3 : a3.IsWhole) (a4 : Memref sig .tc .vmem S8x512 .f32) (h4 : a4.IsWhole) (a5 : Memref sig .tc .vmem S8x1 .f32) (h5 : a5.IsWhole) (a6 : Memref sig .tc .vmem S8x1 .f32) (h6 : a6.IsWhole) (a7 : Memref sig .tc .vmem S8x1 .f32) (h7 : a7.IsWhole) (a8 : Memref sig .tc .vmem S8x1 .f32) (h8 : a8.IsWhole) (hc0 : ¬cond0_0 i) (hc1 : cond0_1 i) (x0 : Vec F S8x512 .f32) (x1 : Vec F S8x512x1024 .f32) (x2 : Vec F S8x512 .f32) (xs0 xs1 : Vec F S8x1 .f32) :
    sout0_C_0 c i a2 h2 a3 h3 a4 h4 a5 h5 a6 h6 a7 h7 a8 h8 hc0 hc1 x0 x1 x2 xs0 xs1 = countStep x1 x2 xs0 := by
  unfold sout0_C_0
  rw [View.read_writes_eq_canon _ _ _ (scover0_C_0 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h7.read_unread, h8.read_unread, View.ld_unit_zero (S := S8x512) hz2, View.ld_unit_zero (S := S8x1) hz2, View.readCov_unit_zero (S := S8x1) _ hz2]
  rfl

theorem sout_C_1 (c : Dev nD) (i : grid0.Coords) (a2 : Memref sig .tc .vmem S8x512 .f32) (h2 : a2.IsWhole) (a3 : Memref sig .tc .vmem S8x512x1024 .f32) (h3 : a3.IsWhole) (a4 : Memref sig .tc .vmem S8x512 .f32) (h4 : a4.IsWhole) (a5 : Memref sig .tc .vmem S8x1 .f32) (h5 : a5.IsWhole) (a6 : Memref sig .tc .vmem S8x1 .f32) (h6 : a6.IsWhole) (a7 : Memref sig .tc .vmem S8x1 .f32) (h7 : a7.IsWhole) (a8 : Memref sig .tc .vmem S8x1 .f32) (h8 : a8.IsWhole) (hc0 : ¬cond0_0 i) (hc1 : cond0_1 i) (x0 : Vec F S8x512 .f32) (x1 : Vec F S8x512x1024 .f32) (x2 : Vec F S8x512 .f32) (xs0 xs1 : Vec F S8x1 .f32) :
    sout0_C_1 c i a2 h2 a3 h3 a4 h4 a5 h5 a6 h6 a7 h7 a8 h8 hc0 hc1 x0 x1 x2 xs0 xs1 = totalStep x0 xs1 := by
  unfold sout0_C_1
  rw [View.read_writes_eq_canon _ _ _ (scover0_C_1 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h7.read_unread, h8.read_unread, View.ld_unit_zero (S := S8x512) hz2, View.ld_unit_zero (S := S8x1) hz2, View.readCov_unit_zero (S := S8x1) _ hz2]
  rfl

theorem out_C_3 (c : Dev nD) (i : grid0.Coords) (a2 : Memref sig .tc .vmem S8x512 .f32) (h2 : a2.IsWhole) (a3 : Memref sig .tc .vmem S8x512x1024 .f32) (h3 : a3.IsWhole) (a4 : Memref sig .tc .vmem S8x512 .f32) (h4 : a4.IsWhole) (a5 : Memref sig .tc .vmem S8x1 .f32) (h5 : a5.IsWhole) (a6 : Memref sig .tc .vmem S8x1 .f32) (h6 : a6.IsWhole) (a7 : Memref sig .tc .vmem S8x1 .f32) (h7 : a7.IsWhole) (a8 : Memref sig .tc .vmem S8x1 .f32) (h8 : a8.IsWhole) (hc0 : ¬cond0_0 i) (hc1 : cond0_1 i) (x0 : Vec F S8x512 .f32) (x1 : Vec F S8x512x1024 .f32) (x2 : Vec F S8x512 .f32) (xs0 xs1 : Vec F S8x1 .f32) :
    out0_C_3 c i a2 h2 a3 h3 a4 h4 a5 h5 a6 h6 a7 h7 a8 h8 hc0 hc1 x0 x1 x2 xs0 xs1 = countStep x1 x2 xs0 := by
  unfold out0_C_3
  rw [View.read_writes_eq_canon _ _ _ (cover0_C_3 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h7.read_unread, h8.read_unread, View.ld_unit_zero (S := S8x512) hz2, View.ld_unit_zero (S := S8x1) hz2, View.readCov_unit_zero (S := S8x1) _ hz2]
  rfl

theorem out_C_4 (c : Dev nD) (i : grid0.Coords) (a2 : Memref sig .tc .vmem S8x512 .f32) (h2 : a2.IsWhole) (a3 : Memref sig .tc .vmem S8x512x1024 .f32) (h3 : a3.IsWhole) (a4 : Memref sig .tc .vmem S8x512 .f32) (h4 : a4.IsWhole) (a5 : Memref sig .tc .vmem S8x1 .f32) (h5 : a5.IsWhole) (a6 : Memref sig .tc .vmem S8x1 .f32) (h6 : a6.IsWhole) (a7 : Memref sig .tc .vmem S8x1 .f32) (h7 : a7.IsWhole) (a8 : Memref sig .tc .vmem S8x1 .f32) (h8 : a8.IsWhole) (hc0 : ¬cond0_0 i) (hc1 : cond0_1 i) (x0 : Vec F S8x512 .f32) (x1 : Vec F S8x512x1024 .f32) (x2 : Vec F S8x512 .f32) (xs0 xs1 : Vec F S8x1 .f32) :
    out0_C_4 c i a2 h2 a3 h3 a4 h4 a5 h5 a6 h6 a7 h7 a8 h8 hc0 hc1 x0 x1 x2 xs0 xs1 = totalStep x0 xs1 := by
  unfold out0_C_4
  rw [View.read_writes_eq_canon _ _ _ (cover0_C_4 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h7.read_unread, h8.read_unread, View.ld_unit_zero (S := S8x512) hz2, View.ld_unit_zero (S := S8x1) hz2, View.readCov_unit_zero (S := S8x1) _ hz2]
  rfl

/-! First tile: the accumulators are reset to the zero column, then take one step. -/
theorem sout_A_0 (c : Dev nD) (i : grid0.Coords) (a2 : Memref sig .tc .vmem S8x512 .f32) (h2 : a2.IsWhole) (a3 : Memref sig .tc .vmem S8x512x1024 .f32) (h3 : a3.IsWhole) (a4 : Memref sig .tc .vmem S8x512 .f32) (h4 : a4.IsWhole) (a5 : Memref sig .tc .vmem S8x1 .f32) (h5 : a5.IsWhole) (a6 : Memref sig .tc .vmem S8x1 .f32) (h6 : a6.IsWhole) (a7 : Memref sig .tc .vmem S8x1 .f32) (h7 : a7.IsWhole) (a8 : Memref sig .tc .vmem S8x1 .f32) (h8 : a8.IsWhole) (hc0 : cond0_0 i) (hc1 : ¬cond0_1 i) (x0 : Vec F S8x512 .f32) (x1 : Vec F S8x512x1024 .f32) (x2 : Vec F S8x512 .f32) :
    sout0_A_0 c i a2 h2 a3 h3 a4 h4 a5 h5 a6 h6 a7 h7 a8 h8 hc0 hc1 x0 x1 x2 = countStep x1 x2 zeroCol := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S8x1) hz2, View.readCov_unit_zero (S := S8x1) _ hz2]
  simp only [View.readAt_eq_ld, h2.read_unread, h3.read_unread, h4.read_unread, h7.read_unread, h8.read_unread, View.ld_unit_zero (S := S8x512) hz2, View.ld_unit_zero (S := S8x1) hz2, View.readCov_unit_zero (S := S8x1) _ hz2]
  rfl

theorem sout_A_1 (c : Dev nD) (i : grid0.Coords) (a2 : Memref sig .tc .vmem S8x512 .f32) (h2 : a2.IsWhole) (a3 : Memref sig .tc .vmem S8x512x1024 .f32) (h3 : a3.IsWhole) (a4 : Memref sig .tc .vmem S8x512 .f32) (h4 : a4.IsWhole) (a5 : Memref sig .tc .vmem S8x1 .f32) (h5 : a5.IsWhole) (a6 : Memref sig .tc .vmem S8x1 .f32) (h6 : a6.IsWhole) (a7 : Memref sig .tc .vmem S8x1 .f32) (h7 : a7.IsWhole) (a8 : Memref sig .tc .vmem S8x1 .f32) (h8 : a8.IsWhole) (hc0 : cond0_0 i) (hc1 : ¬cond0_1 i) (x0 : Vec F S8x512 .f32) (x1 : Vec F S8x512x1024 .f32) (x2 : Vec F S8x512 .f32) :
    sout0_A_1 c i a2 h2 a3 h3 a4 h4 a5 h5 a6 h6 a7 h7 a8 h8 hc0 hc1 x0 x1 x2 = totalStep x0 zeroCol := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S8x1) hz2, View.readCov_unit_zero (S := S8x1) _ hz2]
  simp only [View.readAt_eq_ld, h2.read_unread, h3.read_unread, h4.read_unread, h7.read_unread, h8.read_unread, View.ld_unit_zero (S := S8x512) hz2, View.ld_unit_zero (S := S8x1) hz2, View.readCov_unit_zero (S := S8x1) _ hz2]
  rfl

end Cert.KernelIdeal.Cases

end
-- ==== Proof.KernelAccum.lean ====
import proofs.«143522_j90297392431840_1_alg».proof.Proof.KernelCases

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Cases

variable {F : FTy → Type} [FloatOps F]
variable (m : (ℓ : Loc nD τ sig) → Buf (Elt F) ℓ)

/-- The blocks the three input windows hold at grid point t: alpha, the log-probabilities, the mask. -/
abbrev alphaBlk (c : Dev nD) (t : Fin cfg0.N) : Vec F S8x512 .f32 := iblk m c 0 t
abbrev lpBlk (c : Dev nD) (t : Fin cfg0.N) : Vec F S8x512x1024 .f32 := iblk m c 1 t
abbrev maskBlk (c : Dev nD) (t : Fin cfg0.N) : Vec F S8x512 .f32 := iblk m c 2 t

/-- The count accumulator after grid point n: restarted from the zero column at the first tile of a row block
    (n a multiple of 4), else one step over what the point before left. -/
def countAt (c : Dev nD) : (n : ℕ) → n < cfg0.N → Vec F S8x1 .f32
  | 0, h => countStep (lpBlk m c ⟨0, h⟩) (maskBlk m c ⟨0, h⟩) zeroCol
  | n + 1, h =>
    if (n + 1) % 4 = 0 then countStep (lpBlk m c ⟨n + 1, h⟩) (maskBlk m c ⟨n + 1, h⟩) zeroCol
    else countStep (lpBlk m c ⟨n + 1, h⟩) (maskBlk m c ⟨n + 1, h⟩) (countAt c n (Nat.lt_of_succ_lt h))

/-- The alpha-total accumulator after grid point n, likewise. -/
def totalAt (c : Dev nD) : (n : ℕ) → n < cfg0.N → Vec F S8x1 .f32
  | 0, h => totalStep (alphaBlk m c ⟨0, h⟩) zeroCol
  | n + 1, h =>
    if (n + 1) % 4 = 0 then totalStep (alphaBlk m c ⟨n + 1, h⟩) zeroCol
    else totalStep (alphaBlk m c ⟨n + 1, h⟩) (totalAt c n (Nat.lt_of_succ_lt h))

theorem countAt_succ (c : Dev nD) (n : ℕ) (h : n + 1 < cfg0.N) : countAt m c (n + 1) h =
    if (n + 1) % 4 = 0 then countStep (lpBlk m c ⟨n + 1, h⟩) (maskBlk m c ⟨n + 1, h⟩) zeroCol
    else countStep (lpBlk m c ⟨n + 1, h⟩) (maskBlk m c ⟨n + 1, h⟩) (countAt m c n (Nat.lt_of_succ_lt h)) := rfl

theorem totalAt_succ (c : Dev nD) (n : ℕ) (h : n + 1 < cfg0.N) : totalAt m c (n + 1) h =
    if (n + 1) % 4 = 0 then totalStep (alphaBlk m c ⟨n + 1, h⟩) zeroCol
    else totalStep (alphaBlk m c ⟨n + 1, h⟩) (totalAt m c n (Nat.lt_of_succ_lt h)) := rfl

/-- After every grid point the two carried scratch buffers hold the two accumulators. -/
theorem scratch_eq (c : Dev nD) : ∀ (n : ℕ) (h : n < cfg0.N),
    (outsAt0 m c n h).2.2.1 = countAt m c n h ∧ (outsAt0 m c n h).2.2.2 = totalAt m c n h
  | 0, h => by
    have e := outsAt0_A m c ⟨0, h⟩ rfl (show ¬(0 % 4 = 3) from by decide)
    rw [show outsAt0 m c 0 h = outsAt0 m c (⟨0, h⟩ : Fin cfg0.N).val (⟨0, h⟩ : Fin cfg0.N).isLt from rfl, e]
    dsimp only
    rw [sout_A_0, sout_A_1]
    exact ⟨rfl, rfl⟩
  | n + 1, h => by
    have hN : cfg0.N = 8 := N_0
    have ih := scratch_eq c n (Nat.lt_of_succ_lt h)
    by_cases h0 : (n + 1) % 4 = 0
    · have h1 : ¬(n + 1) % 4 = 3 := by omega
      have e := outsAt0_A m c ⟨n + 1, h⟩ h0 h1
      rw [show outsAt0 m c (n + 1) h = outsAt0 m c (⟨n + 1, h⟩ : Fin cfg0.N).val (⟨n + 1, h⟩ : Fin cfg0.N).isLt from rfl, e]
      dsimp only
      rw [sout_A_0, sout_A_1]
      rw [countAt_succ, totalAt_succ, if_pos h0, if_pos h0]
      exact ⟨rfl, rfl⟩
    · by_cases h1 : (n + 1) % 4 = 3
      · have e := outsAt0_C m c ⟨n + 1, h⟩ h0 h1
        rw [show outsAt0 m c (n + 1) h = outsAt0 m c (⟨n + 1, h⟩ : Fin cfg0.N).val (⟨n + 1, h⟩ : Fin cfg0.N).isLt from rfl, e]
        dsimp only
        rw [sout_C_0, sout_C_1]
        show countStep _ _ (outsAt0 m c n _).2.2.1 = _ ∧ totalStep _ (outsAt0 m c n _).2.2.2 = _
        rw [ih.1, ih.2]
        rw [countAt_succ, totalAt_succ, if_neg h0, if_neg h0]
        exact ⟨rfl, rfl⟩
      · have e := outsAt0_B m c ⟨n + 1, h⟩ h0 h1
        rw [show outsAt0 m c (n + 1) h = outsAt0 m c (⟨n + 1, h⟩ : Fin cfg0.N).val (⟨n + 1, h⟩ : Fin cfg0.N).isLt from rfl, e]
        dsimp only
        rw [sout_B_0, sout_B_1]
        show countStep _ _ (outsAt0 m c n _).2.2.1 = _ ∧ totalStep _ (outsAt0 m c n _).2.2.2 = _
        rw [ih.1, ih.2]
        rw [countAt_succ, totalAt_succ, if_neg h0, if_neg h0]
        exact ⟨rfl, rfl⟩

/-- At the last tile of a row block (n ≡ 3 mod 4) the two output buffers receive the two accumulators. -/
theorem outputs_eq (c : Dev nD) (n : ℕ) (h : n < cfg0.N) (h3 : n % 4 = 3) :
    (outsAt0 m c n h).1 = countAt m c n h ∧ (outsAt0 m c n h).2.1 = totalAt m c n h := by
  have hN : cfg0.N = 8 := N_0
  obtain ⟨k, rfl⟩ : ∃ k, n = k + 1 := ⟨n - 1, by omega⟩
  have h0 : ¬(k + 1) % 4 = 0 := by omega
  have ih := scratch_eq m c k (Nat.lt_of_succ_lt h)
  have e := outsAt0_C m c ⟨k + 1, h⟩ h0 h3
  rw [show outsAt0 m c (k + 1) h = outsAt0 m c (⟨k + 1, h⟩ : Fin cfg0.N).val (⟨k + 1, h⟩ : Fin cfg0.N).isLt from rfl, e]
  dsimp only
  rw [out_C_3, out_C_4]
  show countStep _ _ (outsAt0 m c k _).2.2.1 = _ ∧ totalStep _ (outsAt0 m c k _).2.2.2 = _
  rw [ih.1, ih.2]
  rw [countAt_succ, totalAt_succ, if_neg h0, if_neg h0]
  exact ⟨rfl, rfl⟩

end Cert.KernelIdeal.Accum

end
-- ==== Proof.KernelArrays.lean ====
import proofs.«143522_j90297392431840_1_alg».proof.Proof.KernelAccum
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Cases Cert.KernelIdeal.Accum

variable {F : FTy → Type} [FloatOps F]
variable (m : (ℓ : Loc nD τ sig) → Buf (Elt F) ℓ)

theorem countAt_congr (c : Dev nD) {n n' : ℕ} (e : n = n') (h : n < cfg0.N) (h' : n' < cfg0.N) :
    countAt m c n h = countAt m c n' h' := by subst e; rfl
theorem totalAt_congr (c : Dev nD) {n n' : ℕ} (e : n = n') (h : n < cfg0.N) (h' : n' < cfg0.N) :
    totalAt m c n h = totalAt m c n' h' := by subst e; rfl

/-- The grid point at which row r's block finishes: the last of the four tiles of block r / 8. -/
def lastTile (r : ℕ) : ℕ := 4 * (r / 8) + 3

theorem lastTile_lt (r : Fin 16) : lastTile r.val < cfg0.N := by
  rw [show cfg0.N = 8 from N_0]; unfold lastTile; omega

/-- The [16, 1] column of counts the call leaves: row r holds entry r mod 8 of its block's accumulator after the
    block's last tile. -/
def countCol (c : Dev nD) : S16x1.Idx → F .f32 := fun i =>
  countAt m c (lastTile (i 0).val) (lastTile_lt (i 0)) (ix2 (⟨(i 0).val % 8, Nat.mod_lt _ (by decide)⟩ : Fin 8) (0 : Fin 1))

/-- The [16, 1] column of alpha totals, likewise. -/
def totalCol (c : Dev nD) : S16x1.Idx → F .f32 := fun i =>
  totalAt m c (lastTile (i 0).val) (lastTile_lt (i 0)) (ix2 (⟨(i 0).val % 8, Nat.mod_lt _ (by decide)⟩ : Fin 8) (0 : Fin 1))

/-- The output windows' blocks: block index (t / 4, 0), of 8 rows and 1 column, at every grid point. -/
theorem idx3 : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)
theorem idx4 : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)

theorem flushed3_eq (c : Dev nD) (t : Fin cfg0.N) (hf : (cfg0.win 3).flush t = true) :
    (dats m 0 c).flushed 3 t = ((cfg0.win 3).blk t).view.read (Elt F) (countCol m c) := by
  have hN : cfg0.N = 8 := N_0
  have h3 : t.val % 4 = 3 := (flush0_3 t).mp hf
  show (cfg0.win 3).cut (grid0.coords t) ((dats m 0 c).after 3 t) = _
  rw [after0_3, (outputs_eq m c t.val t.isLt h3).1]
  funext y
  show countAt m c t.val t.isLt y = countCol m c (((cfg0.win 3).blk t).view.emb y)
  obtain ⟨i0, i1⟩ := idx3 t
  have hy0 : (y 0).val < 8 := (y 0).isLt
  have hy1 : (y 1).val < 1 := (y 1).isLt
  have e0 : ((((cfg0.win 3).blk t).view.emb y) 0).val = win0_3.index t (0 : Fin 2) * 8 + 1 * (y 0).val := rfl
  unfold countCol
  have hl : lastTile ((((cfg0.win 3).blk t).view.emb y) 0).val = t.val := by rw [e0, i0]; unfold lastTile; omega
  rw [countAt_congr m c hl _ t.isLt]
  refine congrArg (countAt m c t.val t.isLt) ?_
  funext a; apply Fin.ext
  match a with
  | ⟨0, _⟩ => show (y 0).val = ((((cfg0.win 3).blk t).view.emb y) 0).val % 8; rw [e0, i0]; omega
  | ⟨1, _⟩ => show (y 1).val = 0; omega

theorem flushed4_eq (c : Dev nD) (t : Fin cfg0.N) (hf : (cfg0.win 4).flush t = true) :
    (dats m 0 c).flushed 4 t = ((cfg0.win 4).blk t).view.read (Elt F) (totalCol m c) := by
  have hN : cfg0.N = 8 := N_0
  have h3 : t.val % 4 = 3 := (flush0_4 t).mp hf
  show (cfg0.win 4).cut (grid0.coords t) ((dats m 0 c).after 4 t) = _
  rw [after0_4, (outputs_eq m c t.val t.isLt h3).2]
  funext y
  show totalAt m c t.val t.isLt y = totalCol m c (((cfg0.win 4).blk t).view.emb y)
  obtain ⟨i0, i1⟩ := idx4 t
  have hy0 : (y 0).val < 8 := (y 0).isLt
  have hy1 : (y 1).val < 1 := (y 1).isLt
  have e0 : ((((cfg0.win 4).blk t).view.emb y) 0).val = win0_4.index t (0 : Fin 2) * 8 + 1 * (y 0).val := rfl
  unfold totalCol
  have hl : lastTile ((((cfg0.win 4).blk t).view.emb y) 0).val = t.val := by rw [e0, i0]; unfold lastTile; omega
  rw [totalAt_congr m c hl _ t.isLt]
  refine congrArg (totalAt m c t.val t.isLt) ?_
  funext a; apply Fin.ext
  match a with
  | ⟨0, _⟩ => show (y 0).val = ((((cfg0.win 4).blk t).view.emb y) 0).val % 8; rw [e0, i0]; omega
  | ⟨1, _⟩ => show (y 1).val = 0; omega

/-- Every row of the [16, 1] column lies in the block its row block's last tile writes back. -/
theorem cover3 (c : Dev nD) (i : S16x1.Idx) :
    ∃ t : Fin cfg0.N, (cfg0.win 3).flush t = true ∧ i ∈ ((cfg0.win 3).blk t).view.set := by
  have hi0 : (i 0).val < 16 := (i 0).isLt
  have hi1 : (i 1).val < 1 := (i 1).isLt
  refine ⟨⟨lastTile (i 0).val, lastTile_lt (i 0)⟩, (flush0_3 _).mpr (by show lastTile (i 0).val % 4 = 3; unfold lastTile; omega), ?_⟩
  show i ∈ ((View.whole main_v0_0).slice (win0_3.rect ⟨lastTile (i 0).val, lastTile_lt (i 0)⟩)).set
  rw [View.set_slice_whole, Rect.mem_set_unit]
  obtain ⟨i0, i1⟩ := idx3 ⟨lastTile (i 0).val, lastTile_lt (i 0)⟩
  intro a
  match a with
  | ⟨0, _⟩ =>
    show win0_3.index ⟨lastTile (i 0).val, lastTile_lt (i 0)⟩ (0 : Fin 2) * 8 ≤ (i 0).val ∧ (i 0).val < win0_3.index ⟨lastTile (i 0).val, lastTile_lt (i 0)⟩ (0 : Fin 2) * 8 + 8
    rw [i0]; show lastTile (i 0).val / 4 * 8 ≤ (i 0).val ∧ (i 0).val < lastTile (i 0).val / 4 * 8 + 8
    unfold lastTile; omega
  | ⟨1, _⟩ =>
    show win0_3.index ⟨lastTile (i 0).val, lastTile_lt (i 0)⟩ (1 : Fin 2) * 1 ≤ (i 1).val ∧ (i 1).val < win0_3.index ⟨lastTile (i 0).val, lastTile_lt (i 0)⟩ (1 : Fin 2) * 1 + 1
    rw [i1]; omega

theorem cover4 (c : Dev nD) (i : S16x1.Idx) :
    ∃ t : Fin cfg0.N, (cfg0.win 4).flush t = true ∧ i ∈ ((cfg0.win 4).blk t).view.set := by
  have hi0 : (i 0).val < 16 := (i 0).isLt
  have hi1 : (i 1).val < 1 := (i 1).isLt
  refine ⟨⟨lastTile (i 0).val, lastTile_lt (i 0)⟩, (flush0_4 _).mpr (by show lastTile (i 0).val % 4 = 3; unfold lastTile; omega), ?_⟩
  show i ∈ ((View.whole main_v0_1).slice (win0_4.rect ⟨lastTile (i 0).val, lastTile_lt (i 0)⟩)).set
  rw [View.set_slice_whole, Rect.mem_set_unit]
  obtain ⟨i0, i1⟩ := idx4 ⟨lastTile (i 0).val, lastTile_lt (i 0)⟩
  intro a
  match a with
  | ⟨0, _⟩ =>
    show win0_4.index ⟨lastTile (i 0).val, lastTile_lt (i 0)⟩ (0 : Fin 2) * 8 ≤ (i 0).val ∧ (i 0).val < win0_4.index ⟨lastTile (i 0).val, lastTile_lt (i 0)⟩ (0 : Fin 2) * 8 + 8
    rw [i0]; show lastTile (i 0).val / 4 * 8 ≤ (i 0).val ∧ (i 0).val < lastTile (i 0).val / 4 * 8 + 8
    unfold lastTile; omega
  | ⟨1, _⟩ =>
    show win0_4.index ⟨lastTile (i 0).val, lastTile_lt (i 0)⟩ (1 : Fin 2) * 1 ≤ (i 1).val ∧ (i 1).val < win0_4.index ⟨lastTile (i 0).val, lastTile_lt (i 0)⟩ (1 : Fin 2) * 1 + 1
    rw [i1]; omega

/-- After the call the first result array is the column of counts, the second the column of alpha totals. -/
theorem final3 (c : Dev nD) : (dats m 0 c).arrAt 3 cfg0.N = countCol m c :=
  (dats m 0 c).arrAt_eq_of_cover 3 (countCol m c) (flushed3_eq m c) (cover3 c)

theorem final4 (c : Dev nD) : (dats m 0 c).arrAt 4 cfg0.N = totalCol m c :=
  (dats m 0 c).arrAt_eq_of_cover 4 (totalCol m c) (flushed4_eq m c) (cover4 c)

end Cert.KernelIdeal.Arrays

end
-- ==== Proof.KSpec.lean ====
/-
  The kernel's computation, written once as plain functions of arrays (no program imported).

  The Pallas call leaves two columns: for each of the 16 rows, the number of frames t (of 2048) at which the spike
  indicator is not zero, accumulated as a float over four consecutive tiles of 512 frames, and the sum of the row
  of alpha accumulated the same way. The host lines after the call build, from those two columns and the text
  lengths, the [16, 2049] boundary array and the text mask, and reduce |boundary - 1| * mask to one number divided
  by 16. Here the two columns are `rowCount` and `rowTotal`, and the host lines are `boundary`, `textMask` and `finish`.
-/
import Idealize.ShloMosaic.PureOps.Ideal
import Idealize.ShloMosaic.PureOps.Ideal.Laws
import Idealize.ShloMosaic.Lib.ValueIdx

noncomputable section

namespace Cert.KSpec

open Idealize.ShloMosaic Idealize.ShloMosaic.ValueIdx

abbrev S16x2048 : Shape := ⟨2, ![16, 2048]⟩
abbrev S16x2048x1024 : Shape := ⟨3, ![16, 2048, 1024]⟩
abbrev S16 : Shape := ⟨1, ![16]⟩
abbrev S16x1 : Shape := ⟨2, ![16, 1]⟩
abbrev S_ : Shape := ⟨0, ![]⟩
abbrev S2049 : Shape := ⟨1, ![2049]⟩
abbrev S1x2049 : Shape := ⟨2, ![1, 2049]⟩
abbrev S16x2049 : Shape := ⟨2, ![16, 2049]⟩

theorem bcast_S_S16 : S_.BroadcastsInDim S16 (![] : Fin 0 → Fin S16.rank) := by decide
theorem bcast_S2049_S1x2049_1 : S2049.BroadcastsInDim S1x2049 (![1] : Fin 1 → Fin S1x2049.rank) := by decide
theorem bcast_S16_S16x1_0 : S16.BroadcastsInDim S16x1 (![0] : Fin 1 → Fin S16x1.rank) := by decide
theorem bcast_S1x2049_S16x2049_0_1 : S1x2049.BroadcastsInDim S16x2049 (![0, 1] : Fin 2 → Fin S16x2049.rank) := by decide
theorem bcast_S16x1_S16x2049_0_1 : S16x1.BroadcastsInDim S16x2049 (![0, 1] : Fin 2 → Fin S16x2049.rank) := by decide
theorem bcast_S_S1x2049 : S_.BroadcastsInDim S1x2049 (![] : Fin 0 → Fin S1x2049.rank) := by decide
theorem bcast_S_S16x2049 : S_.BroadcastsInDim S16x2049 (![] : Fin 0 → Fin S16x2049.rank) := by decide
theorem reducesTo_S16_S_d0 : S16.ReducesTo [0] S_ := by decide
theorem h_S_ : 0 < S_.numel := by decide
theorem reducesTo_S16x2049_S16_d1 : S16x2049.ReducesTo [1] S16 := by decide

/-! ## What the Pallas call leaves -/

/-- The spike indicator of row r at frame t, as the kernel computes it: 1 - log-probability of the blank above the
    threshold, as a 0/1 float, times the mask; then "not zero" as a 0/1 float again. -/
def spike (lp : S16x2048x1024.Idx → EReal) (mk : S16x2048.Idx → EReal) (r : Fin 16) (t : Fin 2048) : EReal :=
  FloatOps.sitofp (F := Ideal) .f32
    ((Ideal.cmp .one
      (FloatOps.sitofp (F := Ideal) .f32
          ((Ideal.cmp .ogt (Ideal.ofBits .f32 0x3F800000#32 - lp (ix3 r t (0 : Fin 1024))) (Ideal.ofBits .f32 0x3F8C9F54#32)).setWidth 32)
        * mk (ix2 r t))
      (Ideal.ofBits .f32 0x00000000#32)).setWidth 32)

/-- The sum of f over tile k: frames 512k … 512k + 511. -/
def tile (f : Fin 2048 → EReal) (k : Fin 4) : EReal :=
  ∑ c : Fin 512, f ⟨512 * k.val + c.val, by have := k.isLt; have := c.isLt; omega⟩

/-- The accumulator after the four tiles, in the kernel's order: reset to zero, then one tile added at a time. -/
def acc (f : Fin 2048 → EReal) : EReal :=
  (((Ideal.ofBits .f32 0x00000000#32 + tile f 0) + tile f 1) + tile f 2) + tile f 3

/-- Per row, the count of frames with a spike, as the float the kernel accumulates. -/
def rowCount (lp : S16x2048x1024.Idx → EReal) (mk : S16x2048.Idx → EReal) : FVec Ideal S16 .f32 :=
  fun i => acc (spike lp mk (i 0))

/-- Per row, the sum of alpha. -/
def rowTotal (al : S16x2048.Idx → EReal) : FVec Ideal S16 .f32 :=
  fun i => acc fun t => al (ix2 (i 0) t)

/-! ## The host lines after the call -/

/-- Frame numbers 0 … 2048 as a [1, 2049] row of words. -/
def frames : IVec S1x2049 32 := broadcastInDim S1x2049 ![1] bcast_S2049_S1x2049_1 (iotaInDim S2049 32 0)

/-- Whether a row has a segment: its count is at least one. -/
def hasSeg (n : FVec Ideal S16 .f32) : IVec S16 1 :=
  cmpf .oge n (broadcastInDim S16 ![] bcast_S_S16 (constant S_ .f32 0x3F800000#32))

/-- The padded row length: the count where there is a segment, else one. -/
def rowLen (n : FVec Ideal S16 .f32) : FVec Ideal S16 .f32 :=
  select (hasSeg n) n (broadcastInDim S16 ![] bcast_S_S16 (id (constant S_ .f32 0x3F800000#32)))

/-- Column j of row b belongs to a segment: the row has one and j is below its count. -/
def segCols (n : FVec Ideal S16 .f32) : IVec S16x2049 1 :=
  andi (broadcastInDim S16x2049 ![0, 1] bcast_S16x1_S16x2049_0_1 (broadcastInDim S16x1 ![0] bcast_S16_S16x1_0 (hasSeg n)))
    (cmpf .olt (broadcastInDim S16x2049 ![0, 1] bcast_S1x2049_S16x2049_0_1 (sitofp .f32 frames))
      (broadcastInDim S16x2049 ![0, 1] bcast_S16x1_S16x2049_0_1 (broadcastInDim S16x1 ![0] bcast_S16_S16x1_0 n)))

/-- Column 0 of a row without a segment. -/
def onesCol (n : FVec Ideal S16 .f32) : IVec S16x2049 1 :=
  andi (broadcastInDim S16x2049 ![0, 1] bcast_S16x1_S16x2049_0_1 (broadcastInDim S16x1 ![0] bcast_S16_S16x1_0 (noti (hasSeg n))))
    (broadcastInDim S16x2049 ![0, 1] bcast_S1x2049_S16x2049_0_1
      (cmpi .eq frames (broadcastInDim S1x2049 ![] bcast_S_S1x2049 (constantI S_ 32 0#32))))

/-- The boundary array: the row's alpha sum on its segment columns, 1 on column 0 of a row without one, 0 elsewhere. -/
def boundary (n rs : FVec Ideal S16 .f32) : FVec Ideal S16x2049 .f32 :=
  select (segCols n)
    (broadcastInDim S16x2049 ![0, 1] bcast_S16x1_S16x2049_0_1 (broadcastInDim S16x1 ![0] bcast_S16_S16x1_0 rs))
    (id (select (onesCol n) (broadcastInDim S16x2049 ![] bcast_S_S16x2049 (constant S_ .f32 0x3F800000#32))
      (broadcastInDim S16x2049 ![] bcast_S_S16x2049 (constant S_ .f32 0x00000000#32))))

/-- The text lengths as floats. -/
def textLenF (tl : IVec S16 32) : FVec Ideal S16 .f32 := sitofp .f32 tl

/-- The truncation width: the smaller of the largest padded row length and the largest text length. -/
def width (n : FVec Ideal S16 .f32) (tl : IVec S16 32) : FVec Ideal S_ .f32 :=
  minimumf (Host.reduce FloatOps.maximumf (rowLen n) (constant S_ .f32 0xFF800000#32) reducesTo_S16_S_d0 h_S_)
    (Host.reduce FloatOps.maximumf (textLenF tl) (constant S_ .f32 0xFF800000#32) reducesTo_S16_S_d0 h_S_)

/-- The text mask: column j of row b is kept when j is below the row's text length and below the width. -/
def textMask (n : FVec Ideal S16 .f32) (tl : IVec S16 32) : IVec S16x2049 1 :=
  andi
    (cmpf .olt (broadcastInDim S16x2049 ![0, 1] bcast_S1x2049_S16x2049_0_1 (sitofp .f32 frames))
      (broadcastInDim S16x2049 ![0, 1] bcast_S16x1_S16x2049_0_1 (broadcastInDim S16x1 ![0] bcast_S16_S16x1_0 (textLenF tl))))
    (broadcastInDim S16x2049 ![0, 1] bcast_S1x2049_S16x2049_0_1
      (cmpf .olt (sitofp .f32 frames) (broadcastInDim S1x2049 ![] bcast_S_S1x2049 (width n tl))))

/-- The last lines, shared word for word by the reference: |boundary - 1| * mask summed over columns, then rows, over 16. -/
def finish (bnd : FVec Ideal S16x2049 .f32) (msk : IVec S16x2049 1) : FVec Ideal S_ .f32 :=
  Host.divf
    (Host.reduceAdd
      (Host.reduceAdd
        (mulf (Host.absf (subf bnd (broadcastInDim S16x2049 ![] bcast_S_S16x2049 (constant S_ .f32 0x3F800000#32)))) (uitofp .f32 msk))
        (constant S_ .f32 0x00000000#32) reducesTo_S16x2049_S16_d1 h_S_)
      (constant S_ .f32 0x00000000#32) reducesTo_S16_S_d0 h_S_)
    (constant S_ .f32 0x41800000#32)

/-- The kernel's result from the two columns and the text lengths. -/
def result (n rs : FVec Ideal S16 .f32) (tl : IVec S16 32) : FVec Ideal S_ .f32 :=
  finish (boundary n rs) (textMask n tl)

end Cert.KSpec

end
-- ==== Proof.LibRowColumn.lean ====
/-
  Row sums and the column forms a row sum with kept dimensions passes through, read at an entry.

  A sum along the rows of an [a, b] matrix is a vector of length a; "keeping the dimension" casts it to the column
  [a, 1]; a column is re-laid as the row [1, a] by another cast, and a column is broadcast along the second axis to
  [a, b]. Each lemma reads one of these operations at an index written by its coordinates: the cast and the broadcast
  read the operand at one index, and the row sum at row p is the sum over the columns k of entry (p, k).
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowColumn

open Idealize.ShloMosaic Idealize.ShloMosaic.ValueIdx

variable {α : Type}

/-- A vector [a] cast to the column [a, 1] reads, at (i, u), the operand at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the row [1, a] reads, at (u, i), the operand at (i, 0): both have row-major position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix along its rows, over the extended reals, read at row p: the sum over the columns k of
    entry (p, k). The accumulator is the sum's neutral word, so nothing is added to it. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.RowColumn

end
-- ==== Proof.LibIndexWords.lean ====
/-
  The index words of a gather (or scatter) of one entry per row.

  Such an operation takes an array of index pairs [row, column]: the concatenation, along a new second axis, of the
  rows' own numbers (an iota) and the labels, each first passed through the wrap of negative indices (a word that is
  negative as a signed number has the axis's extent added to it). On words that are not negative the wrap is the
  identity, so row `p` of the index array holds the word of `p` and the label's word. The lemmas below read each
  piece of that construction at an index; all are stated over arbitrary operands and literal shapes.
-/
import Idealize.ShloMosaic.Lib.IdealHost
import Idealize.ShloMosaic.Lib.ValueIdx
import Idealize.ShloMosaic.Lib.Pipeline.Value

namespace Cert.LibIndexWords

open Idealize.ShloMosaic Idealize.ShloMosaic.ValueIdx

variable {α : Type}

/-- A select on the signed comparison `L < z`, at an index where `z` holds zero and `L` holds a word below 2³¹ (not
    negative as a signed number), takes `L`'s word. -/
theorem select_slt_zero_apply {s : Shape} (L z y : IVec s 32) (i : s.Idx) (hz : z i = 0#32)
    (h : (L i).toNat < 2 ^ 31) : select (cmpi .slt L z) y L i = L i := by
  show Scalar.select (IntOp.cmpi .slt (L i) (z i)) (y i) (L i) = L i
  rw [hz]
  have e : IntOp.cmpi .slt (L i) 0#32 = 0#1 := by
    unfold IntOp.cmpi
    have : (L i).slt 0#32 = false := by
      rw [BitVec.slt_zero_eq_msb, BitVec.msb_eq_false_iff_two_mul_lt]; omega
    rw [this]; rfl
  rw [e, select_zero]

/-- The wrap of negative indices, `select (L < 0) (L + K) L` with both constants broadcast from scalars, leaves a
    word below 2³¹ as it is. -/
theorem wrapIndex_apply {s : Shape} (h0 : (⟨0, ![]⟩ : Shape).BroadcastsInDim s ![]) (K : BitVec 32) (L : IVec s 32)
    (i : s.Idx) (h : (L i).toNat < 2 ^ 31) :
    select (cmpi .slt L (broadcastInDim s ![] h0 (constantI ⟨0, ![]⟩ 32 0#32)))
      (addi L (broadcastInDim s ![] h0 (constantI ⟨0, ![]⟩ 32 K))) L i = L i :=
  select_slt_zero_apply L _ _ i (by rw [broadcastInDim_scalar_apply]; rfl) h

/-- The iota along the one axis of a vector of at most 2³² entries holds at `p` the word whose value is `p`. -/
theorem iotaInDim_vec_toNat {n : Nat} (hn : n ≤ 2 ^ 32) (p : Fin n) :
    (iotaInDim (⟨1, ![n]⟩ : Shape) 32 0 (ix1 p)).toNat = p.val := by
  rw [iotaInDim_apply]
  show (BitVec.ofNat 32 p.val).toNat = p.val
  rw [BitVec.toNat_ofNat]
  exact Nat.mod_eq_of_lt (lt_of_lt_of_le p.isLt hn)

/-- Two one-column arrays laid side by side: column 0 of the result is the first array. -/
theorem concatenate_cols_left {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) := by
  refine concatenate_pair_apply_left (1 : Fin 2) a b h (ix2 p (0 : Fin 2)) rfl (ix2 p (0 : Fin 1)) ?_
  intro c
  match c with
  | ⟨0, _⟩ => rfl
  | ⟨1, _⟩ => rfl

/-- Two one-column arrays laid side by side: column 1 of the result is the second array. -/
theorem concatenate_cols_right {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) := by
  refine concatenate_pair_apply_right (1 : Fin 2) a b h (ix2 p (1 : Fin 2)) rfl rfl (ix2 p (0 : Fin 1)) ?_ ?_
  · intro c hc
    match c with
    | ⟨0, _⟩ => rfl
    | ⟨1, _⟩ => exact absurd rfl hc
  · rfl

/-- A vector broadcast along a new trailing unit axis reads, at row `p`, the vector at `p`. -/
theorem broadcastInDim_col_apply {n : Nat} (hb : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] hb v (ix2 p q) = v (ix1 p) := by
  refine broadcastInDim_apply ![0] hb v (ix2 p q) (ix1 p) ?_
  intro a
  match a with
  | ⟨0, _⟩ =>
    show p.val = if n = 1 then 0 else p.val
    split
    · omega
    · rfl

/-- A one-column array read as a vector holds, at `p`, the array's entry of row `p`. -/
theorem shapeCast_col_apply {n : Nat} (v : (⟨2, ![n, 1]⟩ : Shape).Idx → α)
    (h : (⟨2, ![n, 1]⟩ : Shape).ShapeCasts ⟨1, ![n]⟩) (p : Fin n) :
    shapeCast ⟨1, ![n]⟩ v h (ix1 p) = v (ix2 p (0 : Fin 1)) := by
  refine shapeCast_apply v h (ix1 p) (ix2 p (0 : Fin 1)) ?_
  rw [Shape.rowMajor_val_two, Shape.rowMajor_val_one]
  show p.val * 1 + 0 = p.val
  omega

end Cert.LibIndexWords
-- ==== Proof.KernelValue.lean ====
import proofs.«143522_j90297392431840_1_alg».proof.Proof.KernelArrays
import proofs.«143522_j90297392431840_1_alg».proof.Proof.KSpec
import proofs.«143522_j90297392431840_1_alg».proof.Proof.LibRowColumn
import proofs.«143522_j90297392431840_1_alg».proof.Proof.LibIndexWords
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Cases Cert.KernelIdeal.Accum Cert.KernelIdeal.Arrays

/-- One frame's spike indicator from the frame's blank log-probability and mask value. -/
def spikeOf (l k : EReal) : EReal :=
  FloatOps.sitofp (F := Ideal) .f32
    ((Ideal.cmp .one
      (FloatOps.sitofp (F := Ideal) .f32
          ((Ideal.cmp .ogt (Ideal.ofBits .f32 0x3F800000#32 - l) (Ideal.ofBits .f32 0x3F8C9F54#32)).setWidth 32) * k)
      (Ideal.ofBits .f32 0x00000000#32)).setWidth 32)

/-- The [8, 512, 1] first column of a block, re-laid as [8, 512], reads the block at (p, k, 0). -/
theorem blank_apply (x1 : Vec Ideal S8x512x1024 .f32) (p : Fin 8) (k : Fin 512) :
    shapeCast S8x512 (View.ld x1 blankRect) shapeCasts_S8x512x1_S8x512 (ix2 p k) = x1 (ix3 p k (0 : Fin 1024)) := by
  refine (shapeCast_apply (View.ld x1 blankRect) shapeCasts_S8x512x1_S8x512 (ix2 p k) (ix3 p k (0 : Fin 1)) ?_).trans ?_
  · rw [Shape.rowMajor_val_three, Shape.rowMajor_val_two]
    show (p.val * 512 + k.val) * 1 + 0 = p.val * 512 + k.val
    omega
  · show x1 (blankRect.idx (ix3 p k (0 : Fin 1))) = _
    refine congrArg x1 (funext fun a => Fin.ext ?_)
    match a with
    | ⟨0, _⟩ => show 0 + 1 * p.val = p.val; omega
    | ⟨1, _⟩ => show 0 + 1 * k.val = k.val; omega
    | ⟨2, _⟩ => show 0 + 1 * 0 = 0; rfl

/-- One step of the count at row p of the block: the accumulator plus the number of spikes among the block's 512 frames. -/
theorem countStep_apply (x1 : Vec Ideal S8x512x1024 .f32) (x2 : Vec Ideal S8x512 .f32) (a : Vec Ideal S8x1 .f32) (p : Fin 8) :
    countStep (F := Ideal) x1 x2 a (ix2 p (0 : Fin 1))
      = a (ix2 p (0 : Fin 1)) + ∑ k : Fin 512, spikeOf (x1 (ix3 p k (0 : Fin 1024))) (x2 (ix2 p k)) := by
  unfold countStep k0_pay3
  simp only [shapeCast_self]
  show a (ix2 p 0) + shapeCast S8x1 _ shapeCasts_S8_S8x1 (ix2 p (0 : Fin 1)) = _
  refine congrArg (a (ix2 p 0) + ·) ?_
  refine (Cert.RowColumn.shapeCast_a_a1_apply _ shapeCasts_S8_S8x1 p (0 : Fin 1)).trans ?_
  refine (Cert.RowColumn.rowSum_apply _ _ reduces_S8x512_S8 _ _ p).trans ?_
  refine Finset.sum_congr rfl fun k _ => ?_
  show spikeOf (shapeCast S8x512 (View.ld x1 blankRect) shapeCasts_S8x512x1_S8x512 (ix2 p k)) (x2 (ix2 p k)) = _
  rw [blank_apply]

/-- One step of the total at row p: the accumulator plus the sum of the block's row of alpha. -/
theorem totalStep_apply (x0 : Vec Ideal S8x512 .f32) (a : Vec Ideal S8x1 .f32) (p : Fin 8) :
    totalStep (F := Ideal) x0 a (ix2 p (0 : Fin 1)) = a (ix2 p (0 : Fin 1)) + ∑ k : Fin 512, x0 (ix2 p k) := by
  unfold totalStep k0_pay4
  simp only [shapeCast_self]
  show a (ix2 p 0) + shapeCast S8x1 _ shapeCasts_S8_S8x1 (ix2 p (0 : Fin 1)) = _
  refine congrArg (a (ix2 p 0) + ·) ?_
  refine (Cert.RowColumn.shapeCast_a_a1_apply _ shapeCasts_S8_S8x1 p (0 : Fin 1)).trans ?_
  exact Cert.RowColumn.rowSum_apply _ _ reduces_S8x512_S8 _ _ p

/-- The zero column holds the float zero. -/
theorem zeroCol_apply (p : Fin 8) : (zeroCol (F := Ideal)) (ix2 p (0 : Fin 1)) = Ideal.ofBits .f32 0x00000000#32 := by
  unfold zeroCol k0_pay1
  simp only [shapeCast_self]
  rfl

variable (m : (ℓ : Loc nD τ sig) → Buf (Elt Ideal) ℓ)

/-- The three input windows' block indices at grid point t: row block t / 4, tile t mod 4 (and the whole last axis). -/
theorem idx_in : ∀ t : Fin cfg0.N, win0_0.index t (0 : Fin 2) = t.val / 4 ∧ win0_0.index t (1 : Fin 2) = t.val % 4
    ∧ win0_1.index t (0 : Fin 3) = t.val / 4 ∧ win0_1.index t (1 : Fin 3) = t.val % 4 ∧ win0_1.index t (2 : Fin 3) = 0
    ∧ win0_2.index t (0 : Fin 2) = t.val / 4 ∧ win0_2.index t (1 : Fin 2) = t.val % 4 :=
  (by decide +kernel : ∀ t : Fin grid0.N, win0_0.index t (0 : Fin 2) = t.val / 4 ∧ win0_0.index t (1 : Fin 2) = t.val % 4
    ∧ win0_1.index t (0 : Fin 3) = t.val / 4 ∧ win0_1.index t (1 : Fin 3) = t.val % 4 ∧ win0_1.index t (2 : Fin 3) = 0
    ∧ win0_2.index t (0 : Fin 2) = t.val / 4 ∧ win0_2.index t (1 : Fin 2) = t.val % 4)

/-- Row 8·(t/4) + p and frame 512·(t mod 4) + k of the arrays, for (p, k) inside the block of grid point t. -/
def rowOf (t : Fin cfg0.N) (p : Fin 8) : Fin 16 := ⟨8 * (t.val / 4) + p.val, by have h : t.val < 8 := lt_of_lt_of_eq t.isLt N_0; have := p.isLt; omega⟩
def frameOf (t : Fin cfg0.N) (k : Fin 512) : Fin 2048 := ⟨512 * (t.val % 4) + k.val, by have := k.isLt; omega⟩

theorem lpBlk_apply (c : Dev nD) (t : Fin cfg0.N) (p : Fin 8) (k : Fin 512) :
    lpBlk m c t (ix3 p k (0 : Fin 1024)) = m ((c.tc : Thread nD τ).loc main_arg1) (ix3 (rowOf t p) (frameOf t k) (0 : Fin 1024)) := by
  obtain ⟨-, -, e0, e1, e2, -, -⟩ := idx_in t
  show m ((c.tc : Thread nD τ).loc main_arg1) (((cfg0.win 1).blk t).view.emb (ix3 p k (0 : Fin 1024))) = _
  refine congrArg (m ((c.tc : Thread nD τ).loc main_arg1)) (funext fun a => Fin.ext ?_)
  match a with
  | ⟨0, _⟩ => show win0_1.index t (0 : Fin 3) * 8 + 1 * p.val = 8 * (t.val / 4) + p.val; rw [e0]; omega
  | ⟨1, _⟩ => show win0_1.index t (1 : Fin 3) * 512 + 1 * k.val = 512 * (t.val % 4) + k.val; rw [e1]; omega
  | ⟨2, _⟩ => show win0_1.index t (2 : Fin 3) * 1024 + 1 * 0 = 0; rw [e2]

theorem maskBlk_apply (c : Dev nD) (t : Fin cfg0.N) (p : Fin 8) (k : Fin 512) :
    maskBlk m c t (ix2 p k) = m ((c.tc : Thread nD τ).loc main_arg2) (ix2 (rowOf t p) (frameOf t k)) := by
  obtain ⟨-, -, -, -, -, e0, e1⟩ := idx_in t
  show m ((c.tc : Thread nD τ).loc main_arg2) (((cfg0.win 2).blk t).view.emb (ix2 p k)) = _
  refine congrArg (m ((c.tc : Thread nD τ).loc main_arg2)) (funext fun a => Fin.ext ?_)
  match a with
  | ⟨0, _⟩ => show win0_2.index t (0 : Fin 2) * 8 + 1 * p.val = 8 * (t.val / 4) + p.val; rw [e0]; omega
  | ⟨1, _⟩ => show win0_2.index t (1 : Fin 2) * 512 + 1 * k.val = 512 * (t.val % 4) + k.val; rw [e1]; omega

theorem alphaBlk_apply (c : Dev nD) (t : Fin cfg0.N) (p : Fin 8) (k : Fin 512) :
    alphaBlk m c t (ix2 p k) = m ((c.tc : Thread nD τ).loc main_arg0) (ix2 (rowOf t p) (frameOf t k)) := by
  obtain ⟨e0, e1, -, -, -, -, -⟩ := idx_in t
  show m ((c.tc : Thread nD τ).loc main_arg0) (((cfg0.win 0).blk t).view.emb (ix2 p k)) = _
  refine congrArg (m ((c.tc : Thread nD τ).loc main_arg0)) (funext fun a => Fin.ext ?_)
  match a with
  | ⟨0, _⟩ => show win0_0.index t (0 : Fin 2) * 8 + 1 * p.val = 8 * (t.val / 4) + p.val; rw [e0]; omega
  | ⟨1, _⟩ => show win0_0.index t (1 : Fin 2) * 512 + 1 * k.val = 512 * (t.val % 4) + k.val; rw [e1]; omega

/-- The spikes of tile t mod 4 of row 8·(t/4) + p, counted inside the block of grid point t. -/
theorem tile_count (c : Dev nD) (t : Fin cfg0.N) (p : Fin 8) (r : Fin 16) (j : Fin 4) (hr : r = rowOf t p) (hj : j.val = t.val % 4) :
    ∑ k : Fin 512, spikeOf (lpBlk m c t (ix3 p k (0 : Fin 1024))) (maskBlk m c t (ix2 p k))
      = Cert.KSpec.tile (Cert.KSpec.spike (m ((c.tc : Thread nD τ).loc main_arg1)) (m ((c.tc : Thread nD τ).loc main_arg2)) r) j := by
  subst hr
  unfold Cert.KSpec.tile
  refine Finset.sum_congr rfl fun k _ => ?_
  rw [lpBlk_apply, maskBlk_apply]
  have e : frameOf t k = ⟨512 * j.val + k.val, by have := j.isLt; have := k.isLt; omega⟩ := Fin.ext (by show 512 * (t.val % 4) + k.val = 512 * j.val + k.val; rw [hj])
  rw [e]
  rfl

theorem tile_total (c : Dev nD) (t : Fin cfg0.N) (p : Fin 8) (r : Fin 16) (j : Fin 4) (hr : r = rowOf t p) (hj : j.val = t.val % 4) :
    ∑ k : Fin 512, alphaBlk m c t (ix2 p k)
      = Cert.KSpec.tile (fun f => m ((c.tc : Thread nD τ).loc main_arg0) (ix2 r f)) j := by
  subst hr
  unfold Cert.KSpec.tile
  refine Finset.sum_congr rfl fun k _ => ?_
  rw [alphaBlk_apply]
  have e : frameOf t k = ⟨512 * j.val + k.val, by have := j.isLt; have := k.isLt; omega⟩ := Fin.ext (by show 512 * (t.val % 4) + k.val = 512 * j.val + k.val; rw [hj])
  rw [e]

theorem countAt_start (c : Dev nD) (n : ℕ) (h : n < cfg0.N) (h0 : n % 4 = 0) :
    countAt m c n h = countStep (lpBlk m c ⟨n, h⟩) (maskBlk m c ⟨n, h⟩) zeroCol := by
  cases n with
  | zero => rfl
  | succ n => rw [countAt_succ, if_pos h0]

theorem totalAt_start (c : Dev nD) (n : ℕ) (h : n < cfg0.N) (h0 : n % 4 = 0) :
    totalAt m c n h = totalStep (alphaBlk m c ⟨n, h⟩) zeroCol := by
  cases n with
  | zero => rfl
  | succ n => rw [totalAt_succ, if_pos h0]

/-- After the first tile of a row block: zero plus the tile's count. -/
theorem count_start (c : Dev nD) (n : ℕ) (h : n < cfg0.N) (h0 : n % 4 = 0) (p : Fin 8) (r : Fin 16) (hr : r.val = 8 * (n / 4) + p.val) :
    countAt m c n h (ix2 p (0 : Fin 1))
      = Ideal.ofBits .f32 0x00000000#32
        + Cert.KSpec.tile (Cert.KSpec.spike (m ((c.tc : Thread nD τ).loc main_arg1)) (m ((c.tc : Thread nD τ).loc main_arg2)) r) 0 := by
  rw [countAt_start m c n h h0, countStep_apply, zeroCol_apply]
  rw [tile_count m c ⟨n, h⟩ p r 0 (Fin.ext hr) (by show (0 : ℕ) = n % 4; omega)]

theorem total_start (c : Dev nD) (n : ℕ) (h : n < cfg0.N) (h0 : n % 4 = 0) (p : Fin 8) (r : Fin 16) (hr : r.val = 8 * (n / 4) + p.val) :
    totalAt m c n h (ix2 p (0 : Fin 1))
      = Ideal.ofBits .f32 0x00000000#32 + Cert.KSpec.tile (fun f => m ((c.tc : Thread nD τ).loc main_arg0) (ix2 r f)) 0 := by
  rw [totalAt_start m c n h h0, totalStep_apply, zeroCol_apply]
  rw [tile_total m c ⟨n, h⟩ p r 0 (Fin.ext hr) (by show (0 : ℕ) = n % 4; omega)]

/-- After a later tile: what the tile before left plus this tile's count. -/
theorem count_next (c : Dev nD) (n n' : ℕ) (h : n < cfg0.N) (h' : n' < cfg0.N) (e : n' = n + 1) (h0 : ¬n' % 4 = 0) (p : Fin 8) (r : Fin 16)
    (hr : r.val = 8 * (n' / 4) + p.val) (j : Fin 4) (hj : j.val = n' % 4) :
    countAt m c n' h' (ix2 p (0 : Fin 1))
      = countAt m c n h (ix2 p (0 : Fin 1))
        + Cert.KSpec.tile (Cert.KSpec.spike (m ((c.tc : Thread nD τ).loc main_arg1)) (m ((c.tc : Thread nD τ).loc main_arg2)) r) j := by
  subst e
  rw [countAt_succ, if_neg h0, countStep_apply]
  rw [tile_count m c ⟨n + 1, h'⟩ p r j (Fin.ext hr) hj]

theorem total_next (c : Dev nD) (n n' : ℕ) (h : n < cfg0.N) (h' : n' < cfg0.N) (e : n' = n + 1) (h0 : ¬n' % 4 = 0) (p : Fin 8) (r : Fin 16)
    (hr : r.val = 8 * (n' / 4) + p.val) (j : Fin 4) (hj : j.val = n' % 4) :
    totalAt m c n' h' (ix2 p (0 : Fin 1))
      = totalAt m c n h (ix2 p (0 : Fin 1)) + Cert.KSpec.tile (fun f => m ((c.tc : Thread nD τ).loc main_arg0) (ix2 r f)) j := by
  subst e
  rw [totalAt_succ, if_neg h0, totalStep_apply]
  rw [tile_total m c ⟨n + 1, h'⟩ p r j (Fin.ext hr) hj]

/-- Row r of the count column is the four-tile accumulation of the row's spikes. -/
theorem countCol_apply (c : Dev nD) (r : Fin 16) :
    countCol m c (ix2 r (0 : Fin 1))
      = Cert.KSpec.acc (Cert.KSpec.spike (m ((c.tc : Thread nD τ).loc main_arg1)) (m ((c.tc : Thread nD τ).loc main_arg2)) r) := by
  have hr := r.isLt
  have hN : cfg0.N = 8 := N_0
  show countAt m c (lastTile r.val) (lastTile_lt r) (ix2 (⟨r.val % 8, Nat.mod_lt _ (by decide)⟩ : Fin 8) (0 : Fin 1)) = _
  have hl : lastTile r.val = 4 * (r.val / 8) + 3 := rfl
  unfold Cert.KSpec.acc
  rw [count_next m c (4 * (r.val / 8) + 2) (lastTile r.val) (by omega) (lastTile_lt r) (by omega) (by omega) _ r (by show r.val = 8 * (lastTile r.val / 4) + r.val % 8; omega) 3 (by show 3 = lastTile r.val % 4; omega)]
  rw [count_next m c (4 * (r.val / 8) + 1) (4 * (r.val / 8) + 2) (by omega) (by omega) (by omega) (by omega) _ r (by show r.val = 8 * ((4 * (r.val / 8) + 2) / 4) + r.val % 8; omega) 2 (by show 2 = (4 * (r.val / 8) + 2) % 4; omega)]
  rw [count_next m c (4 * (r.val / 8)) (4 * (r.val / 8) + 1) (by omega) (by omega) (by omega) (by omega) _ r (by show r.val = 8 * ((4 * (r.val / 8) + 1) / 4) + r.val % 8; omega) 1 (by show 1 = (4 * (r.val / 8) + 1) % 4; omega)]
  rw [count_start m c (4 * (r.val / 8)) (by omega) (by omega) _ r (by show r.val = 8 * ((4 * (r.val / 8)) / 4) + r.val % 8; omega)]

theorem totalCol_apply (c : Dev nD) (r : Fin 16) :
    totalCol m c (ix2 r (0 : Fin 1)) = Cert.KSpec.acc (fun f => m ((c.tc : Thread nD τ).loc main_arg0) (ix2 r f)) := by
  have hr := r.isLt
  have hN : cfg0.N = 8 := N_0
  show totalAt m c (lastTile r.val) (lastTile_lt r) (ix2 (⟨r.val % 8, Nat.mod_lt _ (by decide)⟩ : Fin 8) (0 : Fin 1)) = _
  have hl : lastTile r.val = 4 * (r.val / 8) + 3 := rfl
  unfold Cert.KSpec.acc
  rw [total_next m c (4 * (r.val / 8) + 2) (lastTile r.val) (by omega) (lastTile_lt r) (by omega) (by omega) _ r (by show r.val = 8 * (lastTile r.val / 4) + r.val % 8; omega) 3 (by show 3 = lastTile r.val % 4; omega)]
  rw [total_next m c (4 * (r.val / 8) + 1) (4 * (r.val / 8) + 2) (by omega) (by omega) (by omega) (by omega) _ r (by show r.val = 8 * ((4 * (r.val / 8) + 2) / 4) + r.val % 8; omega) 2 (by show 2 = (4 * (r.val / 8) + 2) % 4; omega)]
  rw [total_next m c (4 * (r.val / 8)) (4 * (r.val / 8) + 1) (by omega) (by omega) (by omega) (by omega) _ r (by show r.val = 8 * ((4 * (r.val / 8) + 1) / 4) + r.val % 8; omega) 1 (by show 1 = (4 * (r.val / 8) + 1) % 4; omega)]
  rw [total_start m c (4 * (r.val / 8)) (by omega) (by omega) _ r (by show r.val = 8 * ((4 * (r.val / 8)) / 4) + r.val % 8; omega)]

/-- The first result array, read as a vector of 16, is the kernel's per-row count; the second the per-row alpha total. -/
theorem count_vec (c : Dev nD) :
    shapeCast S16 (countCol m c) shapeCasts_S16x1_S16
      = Cert.KSpec.rowCount (m ((c.tc : Thread nD τ).loc main_arg1)) (m ((c.tc : Thread nD τ).loc main_arg2)) := by
  funext i
  rw [eq_ix1 i]
  refine (Cert.LibIndexWords.shapeCast_col_apply (countCol m c) shapeCasts_S16x1_S16 (i 0)).trans ?_
  exact countCol_apply m c (i 0)

theorem total_vec (c : Dev nD) :
    shapeCast S16 (totalCol m c) shapeCasts_S16x1_S16 = Cert.KSpec.rowTotal (m ((c.tc : Thread nD τ).loc main_arg0)) := by
  funext i
  rw [eq_ix1 i]
  refine (Cert.LibIndexWords.shapeCast_col_apply (totalCol m c) shapeCasts_S16x1_S16 (i 0)).trans ?_
  exact totalCol_apply m c (i 0)

end Cert.KernelIdeal.KValue

end
-- ==== Proof.KernelRun.lean ====
import proofs.«143522_j90297392431840_1_alg».proof.Proof.KernelValue
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.KRun

open Cert.KernelIdeal Cert.KernelIdeal.Gen Cert.KernelIdeal.Arrays Cert.KernelIdeal.KValue

variable (m : (ℓ : Loc nD τ sig) → Buf (Elt Ideal) ℓ) (ρ : Dev nD → PrngReg)

set_option maxRecDepth 100000 in
set_option maxHeartbeats 8000000 in
/-- The host lines after the call compute, from the two result arrays read as vectors and the text lengths, the
    kernel's result: the lines are the definitions of boundary, text mask and the closing sums, operation for operation. -/
theorem tail_eq (c : Dev nD) :
    Pipeline.afterTail₀ cfgs (dats m) 0 (V0 m) [hostOps1, hostOps1_1, hostOps1_2, hostOps1_3, hostOps1_4, hostOps1_5] c main_v47
      = Cert.KSpec.result (shapeCast S16 ((dats m 0 c).arrAt 3 cfg0.N) shapeCasts_S16x1_S16)
          (shapeCast S16 ((dats m 0 c).arrAt 4 cfg0.N) shapeCasts_S16x1_S16) (m ((c.tc : Thread nD τ).loc main_arg3)) := by
  unfold Pipeline.afterTail₀
  simp only [hostOps1, hostOps1_1, hostOps1_2, hostOps1_3, hostOps1_4, hostOps1_5, List.flatten_cons, List.flatten_nil, List.append_nil, List.cons_append, List.nil_append]
  after_results_simp
  simp only [TRef.ofBuf, TRef.toBuf, cast_eq]
  have e3 : Pipeline.withArrays (cfgs 0).spec c (V0 m c) (fun w => (dats m 0 c).arrAt w (cfgs 0).N) (Proc.devRef .tc main_v0_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v0_1)
      = (dats m 0 c).arrAt 4 cfg0.N := Pipeline.withArrays_arr spec0 launch0.win.arr_inj c _ _ 4
  have ea : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  rw [e3, e4, ea]
  rfl

/-- The kernel's run at the ideal instance: it ends with its result at the host lines' value of the per-row counts and
    alpha totals of the argument arrays, and the arguments unchanged. -/
theorem run : θ_run defs (onTc (τ := τ) (main (F := Ideal))) ⟨m, fun _ => 0, ρ⟩ fun r => ∀ c : Dev nD,
      r.2.mem ((c.tc : Thread nD τ).loc main_v47)
        = Cert.KSpec.result (Cert.KSpec.rowCount (m ((c.tc : Thread nD τ).loc main_arg1)) (m ((c.tc : Thread nD τ).loc main_arg2)))
            (Cert.KSpec.rowTotal (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v47 (Pipeline.mem_restRefs_of main_v47 (by decide) (by decide))).trans
        ((tail_eq m c).trans (by rw [final3, final4, count_vec, total_vec])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KRun

end
-- ==== Proof.LibSignedWords.lean ====
/-
  GENERAL LEMMA (no program imported). The value of a signed 32-bit word on the extended reals.

  An integer-to-float conversion read exactly sends a word w to the real number w.toInt. That map is strictly monotone
  for the signed order, so it carries every signed comparison of words to the same comparison of extended reals, the
  signed maximum and minimum to max and min, and a selection between words to the selection between their values; a
  fold of signed maxima from the least word is the fold of max from the bottom over the values when there is at least one
  element. A single bit, widened to a word and read signed, has the value 0 or 1, the same as the bit read unsigned.
-/
import Idealize.ShloMosaic.PureOps.Ideal
import Idealize.ShloMosaic.PureOps.Ideal.Laws
import Idealize.ShloMosaic.Lib.StableHlo.Predicate
import Mathlib.Data.EReal.Basic
import Mathlib.Data.Finset.Fold

noncomputable section

namespace Cert.SignedWords

open Idealize.ShloMosaic

/-- The value of a signed word: its integer, as a real, as an extended real. -/
def val (w : BitVec 32) : EReal := ((w.toInt : ℝ) : EReal)

theorem sitofp_eq_val (w : BitVec 32) : FloatOps.sitofp (F := Ideal) .f32 w = val w := rfl

theorem val_lt_iff {a b : BitVec 32} : val a < val b ↔ a.toInt < b.toInt := by
  unfold val; rw [EReal.coe_lt_coe_iff]; exact Int.cast_lt

theorem val_le_iff {a b : BitVec 32} : val a ≤ val b ↔ a.toInt ≤ b.toInt := by
  unfold val; rw [EReal.coe_le_coe_iff]; exact Int.cast_le

theorem val_injective : Function.Injective val := fun a b h => by
  have h1 : a.toInt ≤ b.toInt := val_le_iff.mp h.le
  have h2 : b.toInt ≤ a.toInt := val_le_iff.mp h.ge
  exact BitVec.eq_of_toInt_eq (le_antisymm h1 h2)

theorem bot_lt_val (a : BitVec 32) : (⊥ : EReal) < val a := EReal.bot_lt_coe _

/-- The float one is the value of the word one. -/
theorem ofBits_one : Ideal.ofBits .f32 0x3F800000#32 = val 1#32 := by
  have h : Ideal.ofBits .f32 0x3F800000#32 = 1 := by simp [Ideal.ofBits, Ideal.ieee, -EReal.coe_mul]; norm_num
  rw [h]; unfold val; norm_num

/-- Signed less-than of words is less-than of their values. -/
theorem cmp_olt_val (a b : BitVec 32) : Ideal.cmp .olt (val a) (val b) = IntOp.cmpi .slt a b := by
  unfold Ideal.cmp IntOp.cmpi
  congr 1
  simp only [BitVec.slt, val_lt_iff]

/-- Signed greater-or-equal of words is greater-or-equal of their values. -/
theorem cmp_oge_val (a b : BitVec 32) : Ideal.cmp .oge (val a) (val b) = IntOp.cmpi .sge a b := by
  unfold Ideal.cmp IntOp.cmpi
  congr 1
  simp only [BitVec.sle, val_le_iff]

theorem maxsi_toInt (a b : BitVec 32) : (IntOp.maxsi a b).toInt = max a.toInt b.toInt := by
  unfold IntOp.maxsi
  by_cases h : b.slt a = true
  · rw [if_pos h]; simp only [BitVec.slt, decide_eq_true_eq] at h; rw [max_eq_left h.le]
  · rw [if_neg h]; simp only [BitVec.slt, decide_eq_true_eq, not_lt] at h; rw [max_eq_right h]

theorem minsi_toInt (a b : BitVec 32) : (IntOp.minsi a b).toInt = min a.toInt b.toInt := by
  unfold IntOp.minsi
  by_cases h : a.slt b = true
  · rw [if_pos h]; simp only [BitVec.slt, decide_eq_true_eq] at h; rw [min_eq_left h.le]
  · rw [if_neg h]; simp only [BitVec.slt, decide_eq_true_eq, not_lt] at h; rw [min_eq_right h]

/-- The signed maximum of two words has the larger of their values. -/
theorem val_maxsi (a b : BitVec 32) : val (IntOp.maxsi a b) = max (val a) (val b) := by
  unfold val; rw [maxsi_toInt, Int.cast_max]; exact EReal.coe_strictMono.monotone.map_max

/-- The signed minimum of two words has the smaller of their values. -/
theorem val_minsi (a b : BitVec 32) : val (IntOp.minsi a b) = min (val a) (val b) := by
  unfold val; rw [minsi_toInt, Int.cast_min]; exact EReal.coe_strictMono.monotone.map_min

instance : Std.Commutative (IntOp.maxsi (w := 32)) :=
  ⟨fun a b => val_injective (by rw [val_maxsi, val_maxsi, max_comm])⟩
instance : Std.Associative (IntOp.maxsi (w := 32)) :=
  ⟨fun a b c => val_injective (by simp only [val_maxsi, max_assoc])⟩

/-- A selection between two words has the selection between their values. -/
theorem val_select (c : BitVec 1) (a b : BitVec 32) : val (Scalar.select c a b) = Scalar.select c (val a) (val b) := by
  unfold Scalar.select; split <;> rfl

/-- A fold of signed maxima over a finite set has the fold of max over the values, from the value of its start. -/
theorem val_fold_maxsi {ι : Type} (s : Finset ι) (i0 : BitVec 32) (f : ι → BitVec 32) :
    val (s.fold IntOp.maxsi i0 f) = s.fold max (val i0) (fun x => val (f x)) :=
  (Finset.fold_hom (op := IntOp.maxsi) (op' := max) (m := val) (fun x y => val_maxsi x y)).symm

/-- Over a set with at least one element, a fold of max does not see a start below every element: the bottom serves. -/
theorem fold_max_start {ι : Type} [DecidableEq ι] (s : Finset ι) (hs : s.Nonempty) (b : EReal) (g : ι → EReal) (hb : ∀ x ∈ s, b ≤ g x) :
    s.fold max b g = s.fold max ⊥ g := by
  induction hs using Finset.Nonempty.cons_induction with
  | singleton a =>
    rw [Finset.fold_singleton, Finset.fold_singleton, max_eq_left (hb a (Finset.mem_singleton_self a)), max_eq_left bot_le]
  | cons a s ha hs ih =>
    rw [Finset.fold_cons, Finset.fold_cons, ih fun x hx => hb x (Finset.mem_cons.mpr (Or.inr hx))]

/-- So the value of the signed maximum over a non-empty set, started at any word, under every element's value or not,
    is the maximum of the values started at the bottom — when the start is the least word. -/
theorem val_fold_maxsi_min {ι : Type} [DecidableEq ι] (s : Finset ι) (hs : s.Nonempty) (f : ι → BitVec 32) :
    val (s.fold IntOp.maxsi (2147483648#32) f) = s.fold max ⊥ (fun x => val (f x)) := by
  rw [val_fold_maxsi]
  refine fold_max_start s hs _ _ fun x _ => ?_
  rw [val_le_iff]
  have h0 : (2147483648#32 : BitVec 32).toInt = -2147483648 := by decide
  have h1 := (f x).isLt
  rw [h0, BitVec.toInt_eq_toNat_cond]
  split <;> omega

/-- A bit widened to a word and read signed is the bit read unsigned: 0 or 1. -/
theorem val_setWidth_bit (b : BitVec 1) : val (b.setWidth 32) = ((b.toNat : ℝ) : EReal) := by
  rcases BitVec.eq_zero_or_eq_one b with rfl | rfl
  · unfold val; norm_num
  · unfold val
    have : ((1#1 : BitVec 1).setWidth 32).toInt = 1 := by decide
    rw [this]; norm_num

/-- A word below 2³¹ read signed is its natural number. -/
theorem val_of_toNat_lt {w : BitVec 32} (h : w.toNat < 2 ^ 31) : val w = ((w.toNat : ℝ) : EReal) := by
  unfold val
  rw [StableHlo.Predicate.toInt_eq_toNat_of_lt h]
  norm_num

end Cert.SignedWords

end
-- ==== Proof.LibBlockedSum.lean ====
/-
  GENERAL LEMMA (no program imported). A sum over the first `n * k` naturals taken `n` at a time: the `k` consecutive runs of length `n`
  partition `0 … n·k − 1`, so summing each run and then the runs is the one long sum. Only commutativity and
  associativity of the addition are used, so it holds in every additive commutative monoid — in particular on
  the extended reals, where no cancellation is available.
-/
import Mathlib.Algebra.BigOperators.Group.Finset.Basic
import Mathlib.Data.Fintype.BigOperators

namespace Cert.BlockedSum

open Finset

/-- Run `s` holds the naturals `n·s … n·s + n − 1`; the first `k` runs together are `0 … n·k − 1`. -/
theorem sum_range_blocks {β : Type*} [AddCommMonoid β] (n : ℕ) (f : ℕ → β) (k : ℕ) :
    ∑ s ∈ range k, ∑ p ∈ range n, f (n * s + p) = ∑ i ∈ range (n * k), f i := by
  induction k with
  | zero => simp
  | succ k ih => rw [sum_range_succ, ih, Nat.mul_succ, sum_range_add]

end Cert.BlockedSum
-- ==== Proof.LibIdealReal.lean ====
/-
  Extended-real terms built from REAL arguments by the operations of the ideal float values
  (`Ideal φ = EReal`) are coercions of real expressions. The lemmas below push the coercion
  `ℝ → EReal` outward through each operation as it stands after the instance's `*_def` lemmas
  have fired (`x + y`, `x - y`, `x * y`, `-x`, `max x y`, `max x (-x)`, `Ideal.exp`, `Ideal.log`,
  `Ideal.div`, `Ideal.cmp`), through finite sums and through maxima taken as a fold of `max`
  from `⊥`; and they read the f32 words of a few constants as the reals (or infinities) they denote.
-/
import Idealize.ShloMosaic.PureOps.Ideal
import Idealize.ShloMosaic.PureOps.Ideal.Laws
import Mathlib.Data.EReal.Inv
import Mathlib.Data.EReal.Operations
import Mathlib.Data.Finset.Lattice.Fold
import Mathlib.Data.Finset.Fold
import Mathlib.Algebra.BigOperators.Group.Finset.Basic
import Mathlib.Analysis.SpecialFunctions.Log.Basic

noncomputable section

namespace Cert.LibIdealReal

open Idealize.ShloMosaic
open scoped BigOperators

/-! ## Constants: f32 words as extended reals -/

/-- `+0.0` denotes the real `0` (as a coercion; `Ideal.ofBits_zero_f32` states it as `0 : EReal`). -/
theorem ofBits_zero_f32_coe : Ideal.ofBits .f32 0x00000000#32 = ((0 : ℝ) : EReal) := by
  rw [Ideal.ofBits_zero_f32, EReal.coe_zero]

/-- `1.0` denotes the real `1`. -/
theorem ofBits_one_f32 : Ideal.ofBits .f32 0x3F800000#32 = ((1 : ℝ) : EReal) := by
  simp [Ideal.ofBits, Ideal.ieee, -EReal.coe_mul]; norm_num

/-- `10.0` denotes the real `10`. -/
theorem ofBits_ten_f32 : Ideal.ofBits .f32 0x41200000#32 = ((10 : ℝ) : EReal) := by
  simp [Ideal.ofBits, Ideal.ieee, -EReal.coe_mul]; norm_num

/-- `-10.0` denotes the real `-10`. -/
theorem ofBits_neg_ten_f32 : Ideal.ofBits .f32 0xC1200000#32 = ((-10 : ℝ) : EReal) := by
  simp [Ideal.ofBits, Ideal.ieee, -EReal.coe_mul]; norm_num

/-- `0.5` denotes the real `1/2`. -/
theorem ofBits_half_f32 : Ideal.ofBits .f32 0x3F000000#32 = ((1 / 2 : ℝ) : EReal) := by
  simp [Ideal.ofBits, Ideal.ieee, -EReal.coe_mul]; norm_num

/-- `2048.0` denotes the real `2048`. -/
theorem ofBits_2048_f32 : Ideal.ofBits .f32 0x45000000#32 = ((2048 : ℝ) : EReal) := by
  simp [Ideal.ofBits, Ideal.ieee, -EReal.coe_mul]; norm_num

/-- `50257.0` denotes the real `50257`. -/
theorem ofBits_50257_f32 : Ideal.ofBits .f32 0x47445100#32 = ((50257 : ℝ) : EReal) := by
  simp [Ideal.ofBits, Ideal.ieee, -EReal.coe_mul]; norm_num

/-- `102926336.0` (`= 2048 · 50257`) denotes the real `102926336`. -/
theorem ofBits_102926336_f32 : Ideal.ofBits .f32 0x4CC45100#32 = ((102926336 : ℝ) : EReal) := by
  simp [Ideal.ofBits, Ideal.ieee, -EReal.coe_mul]; norm_num

/-- The pattern of `-∞` denotes `⊥`. -/
theorem ofBits_neg_inf_f32 : Ideal.ofBits .f32 0xFF800000#32 = (⊥ : EReal) := by
  simp [Ideal.ofBits, Ideal.ieee]

/-- The pattern of `+∞` denotes `⊤`. -/
theorem ofBits_inf_f32 : Ideal.ofBits .f32 0x7F800000#32 = (⊤ : EReal) := by
  simp [Ideal.ofBits, Ideal.ieee]

/-! ## Scalar operations on coerced reals

  Sums, differences, products and negations are Mathlib's `EReal.coe_add`, `EReal.coe_sub`, `EReal.coe_mul`,
  `EReal.coe_neg` read right to left; they are restated here left to right so that `rw` / `simp only` can
  use them without an arrow. -/

/-- A sum of two reals' coercions is the coercion of their sum. -/
theorem coe_add_coe (a b : ℝ) : (a : EReal) + (b : EReal) = ((a + b : ℝ) : EReal) := (EReal.coe_add a b).symm

/-- A difference of two reals' coercions is the coercion of their difference. -/
theorem coe_sub_coe (a b : ℝ) : (a : EReal) - (b : EReal) = ((a - b : ℝ) : EReal) := (EReal.coe_sub a b).symm

/-- A product of two reals' coercions is the coercion of their product. -/
theorem coe_mul_coe (a b : ℝ) : (a : EReal) * (b : EReal) = ((a * b : ℝ) : EReal) := (EReal.coe_mul a b).symm

/-- The negation of a real's coercion is the coercion of its negation. -/
theorem neg_coe (a : ℝ) : -(a : EReal) = ((-a : ℝ) : EReal) := (EReal.coe_neg a).symm

/-- The maximum of two reals' coercions is the coercion of their maximum. -/
theorem max_coe_coe (a b : ℝ) : max (a : EReal) (b : EReal) = ((max a b : ℝ) : EReal) :=
  (EReal.coe_strictMono.monotone.map_max (a := a) (b := b)).symm

/-- The minimum of two reals' coercions is the coercion of their minimum. -/
theorem min_coe_coe (a b : ℝ) : min (a : EReal) (b : EReal) = ((min a b : ℝ) : EReal) :=
  (EReal.coe_strictMono.monotone.map_min (a := a) (b := b)).symm

/-- The instance's absolute value, `max x (-x)`, of a real's coercion is the coercion of `|a|`. -/
theorem max_neg_coe (a : ℝ) : max (a : EReal) (-(a : EReal)) = ((|a| : ℝ) : EReal) := by
  rw [neg_coe, max_coe_coe]; rfl

/-- The same, stated on the instance's field `absf` (`Ideal.absf_def` unfolds it to `max x (-x)`). -/
theorem absf_coe {φ : FTy} (a : ℝ) : FloatOps.absf (F := Ideal) (φ := φ) (a : EReal) = ((|a| : ℝ) : EReal) :=
  max_neg_coe a

/-- The instance's logarithm of a POSITIVE real's coercion is the coercion of its real logarithm. -/
theorem log_coe_of_pos {a : ℝ} (h : 0 < a) : Ideal.log (a : EReal) = ((Real.log a : ℝ) : EReal) := by
  rw [Ideal.log_coe, if_neg (not_le.mpr h)]

/-- The instance's division (`divf`, `hostDivf` and the scalar `divf` all unfold to `Ideal.div`) of a real's
    coercion by a NONZERO real's is the coercion of the quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The reciprocal `Ideal.div 1 x` (the instance's `reciprocal`) of a nonzero real's coercion. -/
theorem div_one_coe {b : ℝ} (hb : b ≠ 0) : Ideal.div 1 (b : EReal) = ((1 / b : ℝ) : EReal) := by
  rw [← EReal.coe_one, div_coe_coe 1 hb]

/-! ### Comparisons and the select on them -/

/-- `cmpf ogt` on two reals' coercions is the bit of `b < a`. -/
theorem cmp_ogt_coe (a b : ℝ) : Ideal.cmp .ogt (a : EReal) (b : EReal) = BitVec.ofBool (decide (b < a)) := by
  simp only [Ideal.cmp, EReal.coe_lt_coe_iff]

/-- `cmpf olt` on two reals' coercions is the bit of `a < b`. -/
theorem cmp_olt_coe (a b : ℝ) : Ideal.cmp .olt (a : EReal) (b : EReal) = BitVec.ofBool (decide (a < b)) := by
  simp only [Ideal.cmp, EReal.coe_lt_coe_iff]

/-- `cmpf oge` on two reals' coercions is the bit of `b ≤ a`. -/
theorem cmp_oge_coe (a b : ℝ) : Ideal.cmp .oge (a : EReal) (b : EReal) = BitVec.ofBool (decide (b ≤ a)) := by
  simp only [Ideal.cmp, EReal.coe_le_coe_iff]

/-- `cmpf ole` on two reals' coercions is the bit of `a ≤ b`. -/
theorem cmp_ole_coe (a b : ℝ) : Ideal.cmp .ole (a : EReal) (b : EReal) = BitVec.ofBool (decide (a ≤ b)) := by
  simp only [Ideal.cmp, EReal.coe_le_coe_iff]

/-- `cmpf ogt` on two reals' coercions answers `1` exactly when `a > b`. -/
theorem cmp_ogt_coe_eq_one_iff (a b : ℝ) : Ideal.cmp .ogt (a : EReal) (b : EReal) = 1#1 ↔ b < a := by
  rw [cmp_ogt_coe]; by_cases h : b < a <;> simp [h]

/-- A select on a proposition's bit is the `if` on the proposition. -/
theorem select_ofBool_decide {α : Type} (p : Prop) [Decidable p] (x y : α) :
    Scalar.select (BitVec.ofBool (decide p)) x y = if p then x else y := by
  by_cases h : p <;> simp [Scalar.select, h]

/-- The select on `cmpf ogt` of two reals' coercions: the first branch exactly when `a > b`. -/
theorem select_cmp_ogt_coe {α : Type} (a b : ℝ) (x y : α) :
    Scalar.select (Ideal.cmp .ogt (a : EReal) (b : EReal)) x y = if b < a then x else y := by
  rw [cmp_ogt_coe, select_ofBool_decide]

/-- The select on `cmpf olt` of two reals' coercions: the first branch exactly when `a < b`. -/
theorem select_cmp_olt_coe {α : Type} (a b : ℝ) (x y : α) :
    Scalar.select (Ideal.cmp .olt (a : EReal) (b : EReal)) x y = if a < b then x else y := by
  rw [cmp_olt_coe, select_ofBool_decide]

/-- The select on `cmpf oge` of two reals' coercions: the first branch exactly when `a ≥ b`. -/
theorem select_cmp_oge_coe {α : Type} (a b : ℝ) (x y : α) :
    Scalar.select (Ideal.cmp .oge (a : EReal) (b : EReal)) x y = if b ≤ a then x else y := by
  rw [cmp_oge_coe, select_ofBool_decide]

/-- The select on `cmpf ole` of two reals' coercions: the first branch exactly when `a ≤ b`. -/
theorem select_cmp_ole_coe {α : Type} (a b : ℝ) (x y : α) :
    Scalar.select (Ideal.cmp .ole (a : EReal) (b : EReal)) x y = if a ≤ b then x else y := by
  rw [cmp_ole_coe, select_ofBool_decide]

/-- An `if` between two reals' coercions is the coercion of the `if`. -/
theorem ite_coe (p : Prop) [Decidable p] (a b : ℝ) :
    (if p then (a : EReal) else (b : EReal)) = ((if p then a else b : ℝ) : EReal) := by
  split <;> rfl

/-! ### The bottom element -/

/-- `⊥` minus a real's coercion is `⊥` (Mathlib's `EReal.bot_sub` at a coercion). -/
theorem bot_sub_coe (a : ℝ) : (⊥ : EReal) - (a : EReal) = ⊥ := EReal.bot_sub _

/-- `max ⊥ x = x` on the extended reals. -/
theorem max_bot_left' (x : EReal) : max ⊥ x = x := max_bot_left x

/-- `max x ⊥ = x` on the extended reals. -/
theorem max_bot_right' (x : EReal) : max x ⊥ = x := max_bot_right x

/-! ## Finite sums and maxima of coerced reals -/

section Big
variable {ι : Type*}

/-- A finite sum of reals' coercions is the coercion of the sum (over a `Finset`; a `Fintype`'s
    `∑ i, _` is the case `s = Finset.univ`). -/
theorem sum_coe (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same for a sum whose terms are KNOWN to be coercions: whatever `F i` is, if each equals
    the coercion of `f i` then the sum is the coercion of `∑ f`. -/
theorem sum_eq_coe_of_eq (s : Finset ι) (F : ι → EReal) (f : ι → ℝ) (h : ∀ i ∈ s, F i = ((f i : ℝ) : EReal)) :
    ∑ i ∈ s, F i = ((∑ i ∈ s, f i : ℝ) : EReal) := by
  rw [Finset.sum_congr rfl h, sum_coe]

/-- The supremum over a nonempty finite set of reals' coercions is the coercion of their
    greatest (`Finset.sup'` on the reals). -/
theorem sup_coe (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun r : ℝ => (r : EReal)) (fun a b => (max_coe_coe a b).symm)).symm

/-- A fold of `max` from `⊥` is the finite supremum. -/
theorem fold_max_bot_eq_sup (s : Finset ι) (F : ι → EReal) : s.fold max (⊥ : EReal) F = s.sup F := rfl

/-- A fold of the instance's `maximumf` is a fold of `max` (what `Host.reduce_eq_fold_single FloatOps.maximumf`
    and `multiReduction_maximumf_eq_fold` leave). -/
theorem fold_maximumf_eq_fold_max {φ : FTy} (s : Finset ι) (b : Ideal φ) (F : ι → Ideal φ) :
    s.fold (FloatOps.maximumf (F := Ideal) (φ := φ)) b F = s.fold (max : EReal → EReal → EReal) b F := rfl

/-- A maximum-reduction of reals' coercions from the initial value `⊥` — the fold of `max` from `⊥` over a
    nonempty finite set, as `multiReduction_maximumf_single` leaves it — is the coercion of their greatest. -/
theorem fold_max_bot_coe (s : Finset ι) (hs : s.Nonempty) (f : ι → ℝ) :
    s.fold max (⊥ : EReal) (fun i => ((f i : ℝ) : EReal)) = ((s.sup' hs f : ℝ) : EReal) := by
  rw [fold_max_bot_eq_sup, sup_coe s hs]

/-- The same for a fold whose terms are KNOWN to be coercions. -/
theorem fold_max_bot_eq_coe_of_eq (s : Finset ι) (hs : s.Nonempty) (F : ι → EReal) (f : ι → ℝ)
    (h : ∀ i ∈ s, F i = ((f i : ℝ) : EReal)) :
    s.fold max (⊥ : EReal) F = ((s.sup' hs f : ℝ) : EReal) := by
  rw [Finset.fold_congr (g := fun i => ((f i : ℝ) : EReal)) h, fold_max_bot_coe s hs]

/-- A fold of `max` from a REAL initial value over reals' coercions is the coercion of the real fold
    (no nonemptiness needed). -/
theorem fold_max_coe (s : Finset ι) (b : ℝ) (f : ι → ℝ) :
    s.fold max ((b : ℝ) : EReal) (fun i => ((f i : ℝ) : EReal)) = ((s.fold max b f : ℝ) : EReal) :=
  Finset.fold_hom (op := (max : ℝ → ℝ → ℝ)) (op' := (max : EReal → EReal → EReal)) (m := fun r : ℝ => (r : EReal))
    (fun a b => (max_coe_coe a b).symm)

end Big

end Cert.LibIdealReal

end
-- ==== Proof.HeadBridge.lean ====
/-
  The kernel's two per-row columns are the reference's.

  The count. The reference widens each spike bit of a row to a 32-bit word and adds the 2048 words of the row. The sum is
  the number of set bits, at most 2048, far below 2^31, so the word read signed is that number; as a real it is the sum
  over the frames of the bits read as 0 or 1. The kernel converts each bit to the float 0 or 1 (a widened bit read signed
  is the bit read unsigned) and adds the floats four tiles of 512 frames at a time from zero; on the extended reals the
  addition is commutative and associative, so the four tiles regroup to the one sum over the 2048 frames. The kernel's
  "not equal" is the ordered one and the reference's the unordered one; on the extended reals they are the same function.

  The total. Both sides add the 2048 entries of a row of alpha from zero, the kernel tile by tile: the same regrouping.
-/
import proofs.«143522_j90297392431840_1_alg».proof.Proof.KSpec
import proofs.«143522_j90297392431840_1_alg».proof.Proof.ReferenceRead
import proofs.«143522_j90297392431840_1_alg».proof.Proof.LibSignedWords
import proofs.«143522_j90297392431840_1_alg».proof.Proof.LibBlockedSum
import proofs.«143522_j90297392431840_1_alg».proof.Proof.LibIdealReal
import Idealize.ShloMosaic.Lib.StableHlo.Predicate
import Idealize.ShloMosaic.Lib.ValueIdx
import Idealize.ShloMosaic.Lib.Pipeline.Value
import Idealize.ShloMosaic.PureOps.Ideal.Laws
import Mathlib.Data.Fintype.BigOperators

noncomputable section

namespace Cert.HeadBridge

open Idealize.ShloMosaic Idealize.ShloMosaic.ValueIdx Idealize.ShloMosaic.StableHlo.Predicate
open Cert.ReferenceIdeal Cert.ReferenceIdeal.Gen Cert.ReferenceIdeal.Read

/-! ## Four tiles of 512 frames are the 2048 frames -/

/-- A sum over four runs written out. -/
theorem sum_range_four {β : Type*} [AddCommMonoid β] (h : ℕ → β) :
    ∑ s ∈ Finset.range 4, h s = h 0 + h 1 + h 2 + h 3 := by
  simp [Finset.sum_range_succ]

/-- The accumulator after the four tiles is the sum over all 2048 frames. -/
theorem acc_eq_sum (f : Fin 2048 → EReal) : Cert.KSpec.acc f = ∑ t : Fin 2048, f t := by
  let g : ℕ → EReal := fun n => if h : n < 2048 then f ⟨n, h⟩ else 0
  have hg : ∀ (n : ℕ) (h : n < 2048), g n = f ⟨n, h⟩ := fun n h => dif_pos h
  have htile : ∀ k : Fin 4, Cert.KSpec.tile f k = ∑ p ∈ Finset.range 512, g (512 * k.val + p) := by
    intro k
    rw [← Fin.sum_univ_eq_sum_range (fun p => g (512 * k.val + p)) 512]
    unfold Cert.KSpec.tile
    exact Finset.sum_congr rfl fun c _ => (hg _ _).symm
  have hall : ∑ t : Fin 2048, f t = ∑ i ∈ Finset.range (512 * 4), g i := by
    rw [show 512 * 4 = 2048 from rfl, ← Fin.sum_univ_eq_sum_range g 2048]
    exact Finset.sum_congr rfl fun t _ => (hg t.val t.isLt).symm
  rw [hall, ← Cert.BlockedSum.sum_range_blocks 512 g 4, sum_range_four]
  unfold Cert.KSpec.acc
  rw [htile 0, htile 1, htile 2, htile 3, Ideal.ofBits_zero_f32, zero_add]
  rfl

/-! ## The spike bit -/

/-- The spike bit of row r at frame t, as the reference computes it. -/
def bit (x1 : S16x2048x1024.Idx → EReal) (x2 : S16x2048.Idx → EReal) (r : Fin 16) (t : Fin 2048) : BitVec 1 :=
  Ideal.cmp .une
    ((((Ideal.cmp .ogt (Ideal.ofBits .f32 0x3F800000#32 - x1 (ix3 r t (0 : Fin 1024))) (Ideal.ofBits .f32 0x3F8C9F54#32)).toNat : ℝ) : EReal)
      * x2 (ix2 r t))
    (Ideal.ofBits .f32 0x00000000#32)

/-- The reference's slice and reshape of the log-probabilities read entry (r, t, 0). -/
theorem idx_slice (r : Fin 16) (t : Fin 2048) : idx_main_v0 (idx_main_v1 (ix2 r t)) = ix3 r t (0 : Fin 1024) := by
  have hr := r.isLt
  have ht := t.isLt
  funext a
  match a with
  | ⟨0, _⟩ => apply Fin.ext; show (r.val * 2048 + t.val) / 2048 = r.val; omega
  | ⟨1, _⟩ => apply Fin.ext; show (r.val * 2048 + t.val) / 1 % 2048 = t.val; omega
  | ⟨2, _⟩ => apply Fin.ext; rfl

/-- The reference's mask of spikes at (r, t) is the spike bit. -/
theorem v9_apply (x1 : (⟨S16x2048x1024, .f32⟩ : BufTy).Contents (Elt Ideal)) (x2 : (⟨S16x2048, .f32⟩ : BufTy).Contents (Elt Ideal))
    (r : Fin 16) (t : Fin 2048) : val_main_v9 (F := Ideal) x1 x2 (ix2 r t) = bit x1 x2 r t := by
  rw [val_main_v9_apply, val_main_v7_apply, val_main_v6_apply, val_main_v5_apply, val_main_v3_apply, val_main_v2_apply,
    val_main_cst_apply, val_main_v4_apply, val_main_cst_0_apply, val_main_v8_apply, val_main_cst_1_apply, val_main_v1_apply,
    val_main_v0_apply, idx_slice]
  rfl

theorem ij_eq_ix2 {n m : Nat} (p : Fin n) (q : Fin m) : ij p q = ix2 p q := by
  funext a; match a with | ⟨0, _⟩ => rfl | ⟨1, _⟩ => rfl

/-- The kernel's spike indicator is the spike bit read as 0 or 1. -/
theorem spike_eq (x1 : S16x2048x1024.Idx → EReal) (x2 : S16x2048.Idx → EReal) (r : Fin 16) (t : Fin 2048) :
    Cert.KSpec.spike x1 x2 r t = (((bit x1 x2 r t).toNat : ℝ) : EReal) := by
  unfold Cert.KSpec.spike bit
  simp only [Cert.SignedWords.sitofp_eq_val, Cert.SignedWords.val_setWidth_bit]
  rfl

/-! ## The count -/

theorem ite_bit (b : BitVec 1) : (if b = 1#1 then 1 else 0 : ℕ) = b.toNat := by
  rcases BitVec.eq_zero_or_eq_one b with rfl | rfl <;> rfl

/-- The reference's integer count of a row, read signed, is the sum over the frames of the spike bits read as 0 or 1. -/
theorem count_eq (x1 : (⟨S16x2048x1024, .f32⟩ : BufTy).Contents (Elt Ideal)) (x2 : (⟨S16x2048, .f32⟩ : BufTy).Contents (Elt Ideal))
    (i : S16.Idx) :
    Cert.SignedWords.val (val_main_v11 (F := Ideal) x1 x2 i) = ∑ t : Fin 2048, (((bit x1 x2 (i 0) t).toNat : ℝ) : EReal) := by
  have hcard : (val_main_v11 (F := Ideal) x1 x2 i).toNat
      = (Finset.univ.filter (fun q : Fin 2048 => val_main_v9 (F := Ideal) x1 x2 (ij (i 0) q) = 1#1)).card :=
    toNat_reduce_count_cols (n := 16) (m := 2048) (by norm_num) (val_main_v9 (F := Ideal) x1 x2) natLt_1_32
      reducesTo_S16x2048_S16_d1 h_S_ i
  have hle : (val_main_v11 (F := Ideal) x1 x2 i).toNat ≤ 2048 := by
    rw [hcard]; exact (Finset.card_le_univ _).trans (by simp)
  rw [Cert.SignedWords.val_of_toNat_lt (by omega), hcard, Finset.card_filter, Nat.cast_sum, ← Cert.LibIdealReal.sum_coe]
  refine Finset.sum_congr rfl fun t _ => ?_
  have h9 : val_main_v9 (F := Ideal) x1 x2 (ij (i 0) t) = bit x1 x2 (i 0) t :=
    (congrArg (val_main_v9 (F := Ideal) x1 x2) (ij_eq_ix2 (i 0) t)).trans (v9_apply x1 x2 (i 0) t)
  exact congrArg (fun n : ℕ => ((n : ℝ) : EReal))
    ((congrArg (fun b : BitVec 1 => if b = 1#1 then 1 else 0) h9).trans (ite_bit _))

/-! ## The two columns -/

end Cert.HeadBridge

open Idealize.ShloMosaic in
theorem Cert.HeadBridge.rowCount_eq (x1 : (⟨Cert.ReferenceIdeal.S16x2048x1024, .f32⟩ : BufTy).Contents (Elt Ideal)) (x2 : (⟨Cert.ReferenceIdeal.S16x2048, .f32⟩ : BufTy).Contents (Elt Ideal)) :
    Cert.KSpec.rowCount x1 x2 = fun i => Cert.SignedWords.val (Cert.ReferenceIdeal.Read.val_main_v11 (F := Ideal) x1 x2 i) := by
  funext i
  show Cert.KSpec.acc (Cert.KSpec.spike x1 x2 (i 0)) = _
  rw [Cert.HeadBridge.acc_eq_sum, Cert.HeadBridge.count_eq x1 x2 i]
  exact Finset.sum_congr rfl fun t _ => Cert.HeadBridge.spike_eq x1 x2 (i 0) t

open Idealize.ShloMosaic in
theorem Cert.HeadBridge.rowTotal_eq (x0 : (⟨Cert.ReferenceIdeal.S16x2048, .f32⟩ : BufTy).Contents (Elt Ideal)) :
    Cert.KSpec.rowTotal x0 = Cert.ReferenceIdeal.Read.val_main_v14 (F := Ideal) x0 := by
  funext i
  show Cert.KSpec.acc (fun t => x0 (Idealize.ShloMosaic.ValueIdx.ix2 (i 0) t)) = _
  rw [Cert.HeadBridge.acc_eq_sum, Cert.ReferenceIdeal.Read.val_main_v14_apply, Cert.ReferenceIdeal.Read.val_main_cst_3_apply,
    Ideal.ofBits_def, Ideal.ofBits_zero_f32, zero_add]
  refine Finset.sum_congr rfl fun k _ => congrArg x0 ?_
  funext a
  match a with
  | ⟨0, _⟩ => rfl
  | ⟨1, _⟩ => rfl

end
-- ==== Proof.BoundaryBridge.lean ====
/-
  The reference's boundary array and closing lines, against the kernel side's.

  Both programs build the [16, 2049] boundary array from a per-row count n and the per-row sums of alpha. The kernel
  side holds n as a float and compares floats; the reference holds n as a signed 32-bit word and compares words. The
  value of a signed word on the extended reals is strictly monotone, so with n the value of the reference's count
  every float comparison on the kernel side is the word comparison on the reference side: the two boundary arrays are
  equal element by element. The closing lines (|boundary - 1| times the mask, summed over columns, then rows, over 16)
  are the same operations on both sides.
-/
import proofs.«143522_j90297392431840_1_alg».proof.Proof.KSpec
import proofs.«143522_j90297392431840_1_alg».proof.Proof.ReferenceRead
import proofs.«143522_j90297392431840_1_alg».proof.Proof.LibSignedWords
import Idealize.ShloMosaic.Lib.StableHlo.Predicate
import Idealize.ShloMosaic.Lib.IdealHost
import Idealize.ShloMosaic.Lib.ValueIdx
import Idealize.ShloMosaic.Lib.Pipeline.Value

noncomputable section

namespace Cert.BoundaryBridge

open Cert.ReferenceIdeal Cert.ReferenceIdeal.Gen Cert.ReferenceIdeal.Read Idealize.ShloMosaic Idealize.ShloMosaic.TcCoe Idealize.SL.Sem
open Idealize.ShloMosaic.StableHlo.Predicate Cert.SignedWords

/-! ## The kernel side, read at one element -/

/-- The frame numbers at column q: the word q. -/
theorem frames_at (q : Fin 2049) : KSpec.frames (i1q q) = BitVec.ofNat 32 q.val := by
  unfold KSpec.frames
  rw [bcast_row1]
  rfl

/-- Whether row p has a segment: its count is at least the float one. -/
theorem hasSeg_at (n : FVec Ideal KSpec.S16 .f32) (p : Fin 16) :
    KSpec.hasSeg n (Shape.Idx.ofFin p) = Ideal.cmp .oge (n (Shape.Idx.ofFin p)) (Ideal.ofBits .f32 0x3F800000#32) := rfl

/-- Column q of row p is a segment column: the row has a segment and q, as a float, is below the row's count. -/
theorem segCols_at (n : FVec Ideal KSpec.S16 .f32) (p : Fin 16) (q : Fin 2049) :
    KSpec.segCols n (ij p q)
      = IntOp.andi (KSpec.hasSeg n (Shape.Idx.ofFin p))
          (Ideal.cmp .olt (val (BitVec.ofNat 32 q.val)) (n (Shape.Idx.ofFin p))) := by
  unfold KSpec.segCols
  show IntOp.andi _ (Ideal.cmp .olt _ _) = _
  rw [bcast_rows, bcast_rows, bcast_of_row]
  show IntOp.andi _ (Ideal.cmp .olt (FloatOps.sitofp (F := Ideal) .f32 (KSpec.frames (i1q q))) _) = _
  rw [frames_at, sitofp_eq_val]

/-- Column q of row p is the lone one of a row without a segment: no segment, and q is the word zero. -/
theorem onesCol_at (n : FVec Ideal KSpec.S16 .f32) (p : Fin 16) (q : Fin 2049) :
    KSpec.onesCol n (ij p q)
      = IntOp.andi (~~~ (KSpec.hasSeg n (Shape.Idx.ofFin p))) (IntOp.cmpi .eq (BitVec.ofNat 32 q.val) 0#32) := by
  unfold KSpec.onesCol
  show IntOp.andi _ _ = _
  rw [bcast_rows, bcast_of_row]
  show IntOp.andi _ (IntOp.cmpi .eq (KSpec.frames (i1q q)) _) = _
  rw [frames_at]
  rfl

/-- The boundary array at (p, q). -/
theorem boundary_at (n rs : FVec Ideal KSpec.S16 .f32) (p : Fin 16) (q : Fin 2049) :
    KSpec.boundary n rs (ij p q)
      = Scalar.select (KSpec.segCols n (ij p q)) (rs (Shape.Idx.ofFin p))
          (Scalar.select (KSpec.onesCol n (ij p q)) (Ideal.ofBits .f32 0x3F800000#32) (Ideal.ofBits .f32 0x00000000#32)) := by
  unfold KSpec.boundary
  show Scalar.select _ _ _ = _
  rw [bcast_rows]
  rfl

/-! ## The reference side, read at one element -/

section Reference

variable (x0 : (⟨S16x2048, .f32⟩ : BufTy).Contents (Elt Ideal)) (x1 : (⟨S16x2048x1024, .f32⟩ : BufTy).Contents (Elt Ideal))
  (x2 : (⟨S16x2048, .f32⟩ : BufTy).Contents (Elt Ideal))

/-- Whether row p has a segment, on words: the count is at least the word one, signed. -/
theorem v13_at (p : Fin 16) :
    val_main_v13 (F := Ideal) x1 x2 (Shape.Idx.ofFin p)
      = IntOp.cmpi .sge (val_main_v11 (F := Ideal) x1 x2 (Shape.Idx.ofFin p)) 1#32 := by
  rw [val_main_v13_apply, val_main_v12_apply, val_main_c_2_apply]

/-- The segment columns on words: the row has a segment and the word q is below the count, signed. -/
theorem v24_at (p : Fin 16) (q : Fin 2049) :
    val_main_v24 (F := Ideal) x1 x2 (ij p q)
      = IntOp.andi (val_main_v13 (F := Ideal) x1 x2 (Shape.Idx.ofFin p))
          (IntOp.cmpi .slt (BitVec.ofNat 32 q.val) (val_main_v11 (F := Ideal) x1 x2 (Shape.Idx.ofFin p))) := by
  rw [val_main_v24_apply, val_main_v23_apply, val_main_v18_apply, val_main_v22_apply, val_main_v20_apply, val_main_v17_apply,
    val_main_v16_apply, val_main_v21_apply, val_main_v19_apply]
  have h1 : idx_main_v18 (idx_main_v23 (ij p q)) = Shape.Idx.ofFin p := funext fun a => by match a with | ⟨0, _⟩ => rfl
  have h2 : idx_main_v19 (idx_main_v21 (ij p q)) = Shape.Idx.ofFin p := funext fun a => by match a with | ⟨0, _⟩ => rfl
  rw [h1, h2]

/-- The lone one of a row without a segment, on words. -/
theorem v31_at (p : Fin 16) (q : Fin 2049) :
    val_main_v31 (F := Ideal) x1 x2 (ij p q)
      = IntOp.andi (~~~ (val_main_v13 (F := Ideal) x1 x2 (Shape.Idx.ofFin p))) (IntOp.cmpi .eq (BitVec.ofNat 32 q.val) 0#32) := by
  rw [val_main_v31_apply, val_main_v29_apply, val_main_v26_apply, val_main_v25_apply, val_main_v30_apply, val_main_v28_apply,
    val_main_v17_apply, val_main_v16_apply, val_main_v27_apply, val_main_c_5_apply]
  have h1 : idx_main_v26 (idx_main_v29 (ij p q)) = Shape.Idx.ofFin p := funext fun a => by match a with | ⟨0, _⟩ => rfl
  rw [h1]

/-- The reference's boundary array at (p, q). -/
theorem v34_at (p : Fin 16) (q : Fin 2049) :
    val_main_v34 (F := Ideal) x0 x1 x2 (ij p q)
      = Scalar.select (val_main_v24 (F := Ideal) x1 x2 (ij p q)) (val_main_v14 (F := Ideal) x0 (Shape.Idx.ofFin p))
          (Scalar.select (val_main_v31 (F := Ideal) x1 x2 (ij p q)) (Ideal.ofBits .f32 0x3F800000#32) (Ideal.ofBits .f32 0x00000000#32)) := by
  rw [val_main_v34_apply, val_main_call2_v1_apply, val_main_v32_apply, val_main_call2_v0_apply, val_main_v33_apply,
    val_main_call1_v0_apply, val_main_cst_6_apply, val_main_call1_v1_apply, val_main_cst_7_apply]
  have h1 : idx_main_v32 (idx_main_call2_v1 (ij p q)) = Shape.Idx.ofFin p := funext fun a => by match a with | ⟨0, _⟩ => rfl
  rw [h1]
  rfl

end Reference

/-! ## The two boundary arrays are equal -/

/-- With the count read as the value of the reference's signed word, the kernel side's boundary array is the reference's. -/
theorem boundary_eq (x0 : (⟨Cert.ReferenceIdeal.S16x2048, .f32⟩ : BufTy).Contents (Elt Ideal)) (x1 : (⟨Cert.ReferenceIdeal.S16x2048x1024, .f32⟩ : BufTy).Contents (Elt Ideal)) (x2 : (⟨Cert.ReferenceIdeal.S16x2048, .f32⟩ : BufTy).Contents (Elt Ideal)) :
    Cert.KSpec.boundary (fun i => Cert.SignedWords.val (Cert.ReferenceIdeal.Read.val_main_v11 (F := Ideal) x1 x2 i)) (Cert.ReferenceIdeal.Read.val_main_v14 (F := Ideal) x0)
      = Cert.ReferenceIdeal.Read.val_main_v34 (F := Ideal) x0 x1 x2 := by
  funext i
  obtain ⟨p, q, rfl⟩ : ∃ (p : Fin 16) (q : Fin 2049), i = ij p q := ⟨i 0, i 1, (ij_eta i).symm⟩
  rw [boundary_at, v34_at, segCols_at, onesCol_at, v24_at, v31_at, hasSeg_at, v13_at]
  rw [ofBits_one, cmp_oge_val, cmp_olt_val]

/-! ## The closing lines -/

/-- The reference's result is the shared closing lines applied to its boundary array and its text mask. -/
theorem finish_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v53 (F := Ideal) m c
      = Cert.KSpec.finish
          (Cert.ReferenceIdeal.Read.val_main_v34 (F := Ideal) (m ((c.tc : Thread Cert.ReferenceIdeal.nD Cert.ReferenceIdeal.τ).loc Cert.ReferenceIdeal.main_arg0)) (m ((c.tc : Thread _ Cert.ReferenceIdeal.τ).loc Cert.ReferenceIdeal.main_arg1)) (m ((c.tc : Thread _ Cert.ReferenceIdeal.τ).loc Cert.ReferenceIdeal.main_arg2)))
          (Cert.ReferenceIdeal.Read.val_main_v45 (F := Ideal) (m ((c.tc : Thread _ Cert.ReferenceIdeal.τ).loc Cert.ReferenceIdeal.main_arg1)) (m ((c.tc : Thread _ Cert.ReferenceIdeal.τ).loc Cert.ReferenceIdeal.main_arg2)) (m ((c.tc : Thread _ Cert.ReferenceIdeal.τ).loc Cert.ReferenceIdeal.main_arg3))) := by
  rw [val_main_v53_eq]
  unfold val_main_v53 val_main_v52 val_main_v51 val_main_v50 val_main_v49 val_main_v48 val_main_v47 val_main_v46 KSpec.finish
  rfl

end Cert.BoundaryBridge

end
-- ==== Proof.MaskBridge.lean ====
/-
  The text mask of the two programs is the same array of bits.

  The kernel side compares floats: the frame number as a float against the row's text length as a float, and against
  the truncation width, the smaller of the largest padded row length and the largest text length, both maxima taken over
  floats. The reference side makes the same comparisons over signed 32-bit words. The value of a signed word on the
  extended reals is strictly monotone, so it carries the signed comparison, the signed maximum and minimum, and a
  selection between words to the same operation on the values; with the per-row count given as the value of the
  reference's integer count, every float on the kernel side is the value of the word at the same place on the reference
  side, and every comparison has the same bit.
-/
import proofs.«143522_j90297392431840_1_alg».proof.Proof.KSpec
import proofs.«143522_j90297392431840_1_alg».proof.Proof.ReferenceRead
import proofs.«143522_j90297392431840_1_alg».proof.Proof.LibSignedWords
import Idealize.ShloMosaic.PureOps.Reduce
import Idealize.ShloMosaic.PureOps.Ideal.Laws

noncomputable section

namespace Cert.MaskBridge

open Idealize.ShloMosaic Cert.SignedWords Cert.ReferenceIdeal.Read

/-- The initial value of the float maxima, the pattern of minus infinity, is the bottom. -/
theorem ofBits_neg_inf : Ideal.ofBits .f32 0xFF800000#32 = (⊥ : EReal) := by
  simp [Ideal.ofBits, Ideal.ieee]

/-- The padded row length of a row is the value of the reference's padded row length: the count where it is at least
    one, else one. -/
theorem rowLen_eq (x1 : (⟨Cert.ReferenceIdeal.S16x2048x1024, .f32⟩ : BufTy).Contents (Elt Ideal))
    (x2 : (⟨Cert.ReferenceIdeal.S16x2048, .f32⟩ : BufTy).Contents (Elt Ideal)) (p : Cert.KSpec.S16.Idx) :
    Cert.KSpec.rowLen (fun i => val (val_main_v11 (F := Ideal) x1 x2 i)) p = val (val_main_v15 (F := Ideal) x1 x2 p) := by
  rw [val_main_v15_apply, val_main_v13_apply, val_select]
  show Scalar.select (Ideal.cmp .oge (val (val_main_v11 (F := Ideal) x1 x2 p)) (Ideal.ofBits .f32 0x3F800000#32))
      (val (val_main_v11 (F := Ideal) x1 x2 p)) (Ideal.ofBits .f32 0x3F800000#32)
    = Scalar.select (IntOp.cmpi .sge (val_main_v11 (F := Ideal) x1 x2 p) 1#32) (val (val_main_v11 (F := Ideal) x1 x2 p)) (val 1#32)
  rw [ofBits_one, cmp_oge_val]

/-- Over a set with at least one element, the fold of the float maximum from minus infinity over values of words is the
    value of the fold of the signed maximum over the words from the least word. -/
theorem fold_max_val {ι : Type} [DecidableEq ι] (s : Finset ι) (hs : s.Nonempty) (f : ι → EReal) (g : ι → BitVec 32)
    (hfg : ∀ p, f p = val (g p)) :
    s.fold (FloatOps.maximumf (F := Ideal) (φ := .f32)) (Ideal.ofBits .f32 0xFF800000#32) f
      = val (s.fold IntOp.maxsi 2147483648#32 g) := by
  show s.fold (max : EReal → EReal → EReal) (Ideal.ofBits .f32 0xFF800000#32) f = val (s.fold IntOp.maxsi 2147483648#32 g)
  rw [val_fold_maxsi_min s hs, ofBits_neg_inf]
  exact Finset.fold_congr (fun k _ => hfg k)

/-- The float maximum of values of words over the sixteen rows, from minus infinity, is the value of the signed maximum of the
    words from the least word: every row drops to the one index of the result, and there is a row. -/
theorem max_rows_eq (f : Cert.KSpec.S16.Idx → EReal) (g : Cert.KSpec.S16.Idx → BitVec 32) (hfg : ∀ p, f p = val (g p))
    (j : Cert.KSpec.S_.Idx) :
    Host.reduce (FloatOps.maximumf (F := Ideal) (φ := .f32)) f (constant (F := Ideal) Cert.KSpec.S_ .f32 0xFF800000#32)
        Cert.KSpec.reducesTo_S16_S_d0 Cert.KSpec.h_S_ j
      = val (Host.reduce IntOp.maxsi g (constantI Cert.KSpec.S_ 32 2147483648#32) Cert.KSpec.reducesTo_S16_S_d0 Cert.KSpec.h_S_ j) := by
  rw [Host.reduce_eq_fold (FloatOps.maximumf (F := Ideal) (φ := .f32)) f, Host.reduce_eq_fold IntOp.maxsi g]
  refine fold_max_val _ ?_ f g hfg
  exact ⟨Shape.Idx.first (by decide), Finset.mem_filter.mpr ⟨Finset.mem_univ _, funext fun b => b.elim0⟩⟩

/-- The truncation width is the value of the reference's: the smaller of the two largest lengths. -/
theorem width_eq (x1 : (⟨Cert.ReferenceIdeal.S16x2048x1024, .f32⟩ : BufTy).Contents (Elt Ideal))
    (x2 : (⟨Cert.ReferenceIdeal.S16x2048, .f32⟩ : BufTy).Contents (Elt Ideal))
    (x3 : (⟨Cert.ReferenceIdeal.S16, .i32⟩ : BufTy).Contents (Elt Ideal)) (j : Cert.KSpec.S_.Idx) :
    Cert.KSpec.width (fun i => val (val_main_v11 (F := Ideal) x1 x2 i)) x3 j = val (val_main_v37 (F := Ideal) x1 x2 x3 j) := by
  rw [val_main_v37_apply, val_minsi]
  show min (Host.reduce (FloatOps.maximumf (F := Ideal) (φ := .f32)) (Cert.KSpec.rowLen (fun i => val (val_main_v11 (F := Ideal) x1 x2 i)))
        (constant (F := Ideal) Cert.KSpec.S_ .f32 0xFF800000#32) Cert.KSpec.reducesTo_S16_S_d0 Cert.KSpec.h_S_ j)
      (Host.reduce (FloatOps.maximumf (F := Ideal) (φ := .f32)) (Cert.KSpec.textLenF x3)
        (constant (F := Ideal) Cert.KSpec.S_ .f32 0xFF800000#32) Cert.KSpec.reducesTo_S16_S_d0 Cert.KSpec.h_S_ j)
    = min (val (Host.reduce IntOp.maxsi (val_main_v15 (F := Ideal) x1 x2) (constantI Cert.KSpec.S_ 32 2147483648#32)
        Cert.KSpec.reducesTo_S16_S_d0 Cert.KSpec.h_S_ j))
      (val (Host.reduce IntOp.maxsi x3 (constantI Cert.KSpec.S_ 32 2147483648#32) Cert.KSpec.reducesTo_S16_S_d0 Cert.KSpec.h_S_ j))
  rw [max_rows_eq _ _ (rowLen_eq x1 x2) j, max_rows_eq (Cert.KSpec.textLenF x3) x3 (fun _ => rfl) j]

/-- One element of the mask: two float comparisons of values of words against two signed comparisons of the words. -/
theorem mask_elt (fr a w : BitVec 32) :
    IntOp.andi (Ideal.cmp .olt (val fr) (val a)) (Ideal.cmp .olt (val fr) (val w))
      = IntOp.andi (IntOp.cmpi .slt fr a) (IntOp.cmpi .slt fr w) := by
  rw [cmp_olt_val, cmp_olt_val]

end Cert.MaskBridge

open Idealize.ShloMosaic in
theorem Cert.MaskBridge.textMask_eq (x1 : (⟨Cert.ReferenceIdeal.S16x2048x1024, .f32⟩ : BufTy).Contents (Elt Ideal)) (x2 : (⟨Cert.ReferenceIdeal.S16x2048, .f32⟩ : BufTy).Contents (Elt Ideal)) (x3 : (⟨Cert.ReferenceIdeal.S16, .i32⟩ : BufTy).Contents (Elt Ideal)) :
    Cert.KSpec.textMask (fun i => Cert.SignedWords.val (Cert.ReferenceIdeal.Read.val_main_v11 (F := Ideal) x1 x2 i)) x3
      = Cert.ReferenceIdeal.Read.val_main_v45 (F := Ideal) x1 x2 x3 := by
  have hw : Cert.KSpec.width (fun i => Cert.SignedWords.val (Cert.ReferenceIdeal.Read.val_main_v11 (F := Ideal) x1 x2 i)) x3
      = fun j => Cert.SignedWords.val (Cert.ReferenceIdeal.Read.val_main_v37 (F := Ideal) x1 x2 x3 j) :=
    funext fun j => Cert.MaskBridge.width_eq x1 x2 x3 j
  unfold Cert.KSpec.textMask
  rw [hw]
  funext i
  exact Cert.MaskBridge.mask_elt _ _ _

end
-- ==== Proof.lean ====
/-
  A CTC boundary loss: per row b of 16, the number n_b of frames (of 2048) at which the spike indicator
  (1 - log-probability of the blank above log 3, times the mask) is not zero, and the sum s_b of the row of alpha;
  then, over columns j = 0 … 2048, the boundary value (s_b where the row has a segment and j < n_b; 1 at j = 0 of a
  row without one; 0 elsewhere), the text mask (j below the row's text length and below the smaller of the largest
  padded row length and the largest text length), and the mean over the 16 rows of the sums of |boundary - 1| * mask.

  The kernel counts and sums inside a Pallas call, four tiles of 512 frames per row accumulated in two small buffers
  that are reset at the first tile of a row block and written out after the last, and then does every comparison of the
  host arithmetic on FLOATS; the reference counts with an integer sum and compares signed 32-bit WORDS. Over the
  extended reals an integer-to-float conversion is exact and strictly monotone, so each float comparison of converted
  words is the signed comparison of the words, maxima and minima are carried across, and the float count (a sum of
  0/1 over four tiles) is the value of the integer count (at most 2048, so the word sum does not wrap). The sums of
  alpha agree because addition of extended reals is commutative and associative: no cancellation is used, so the
  finiteness precondition is never opened.

  Modules: KernelCases (what each case of the kernel body leaves in the accumulators and outputs), KernelAccum (the
  accumulators after every grid point, by induction on the point), KernelArrays (the two result arrays after the call),
  KernelValue (their entries as sums over the argument arrays), KernelRun (the host lines after the call and the
  kernel's run), KSpec (the kernel's computation as plain functions), HeadBridge (counts and totals of the two
  programs agree), BoundaryBridge and MaskBridge (the boundary array and the text mask agree), ReferenceRun and
  ReferenceRead (the reference's run and its operations read at an index).
-/
import proofs.«143522_j90297392431840_1_alg».proof.Defs
import proofs.«143522_j90297392431840_1_alg».proof.Proof.Gen.Kernel
import proofs.«143522_j90297392431840_1_alg».proof.Proof.Gen.Kernel.Skeleton
import proofs.«143522_j90297392431840_1_alg».proof.Proof.Gen.Kernel.Launch
import proofs.«143522_j90297392431840_1_alg».proof.Proof.Gen.Kernel.Points
import proofs.«143522_j90297392431840_1_alg».proof.Proof.Gen.Kernel.Frame
import proofs.«143522_j90297392431840_1_alg».proof.Proof.Gen.KernelIdeal
import proofs.«143522_j90297392431840_1_alg».proof.Proof.Gen.KernelIdeal.Skeleton
import proofs.«143522_j90297392431840_1_alg».proof.Proof.Gen.KernelIdeal.Launch
import proofs.«143522_j90297392431840_1_alg».proof.Proof.Gen.KernelIdeal.Points
import proofs.«143522_j90297392431840_1_alg».proof.Proof.Gen.KernelIdeal.Frame
import proofs.«143522_j90297392431840_1_alg».proof.Proof.Gen.ReferenceIdeal
import proofs.«143522_j90297392431840_1_alg».proof.Proof.Gen.Pre_finite_inputs
import proofs.«143522_j90297392431840_1_alg».proof.Proof.KernelRun
import proofs.«143522_j90297392431840_1_alg».proof.Proof.ReferenceRead
import proofs.«143522_j90297392431840_1_alg».proof.Proof.HeadBridge
import proofs.«143522_j90297392431840_1_alg».proof.Proof.BoundaryBridge
import proofs.«143522_j90297392431840_1_alg».proof.Proof.MaskBridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the closing sums of the same boundary array and the same text mask: the kernel's from its float
    counts, the reference's from its integer counts, whose values the float counts are. -/
theorem algebraic : Cert.algebraic_KernelIdeal_ReferenceIdeal := by
  intro m ρ m' ρ' _ hagree
  refine ⟨fun c => Cert.KSpec.result
      (Cert.KSpec.rowCount (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.KSpec.rowTotal (m ((c.tc : Thread Cert.KernelIdeal.nD Cert.KernelIdeal.τ).loc Cert.KernelIdeal.main_arg0)))
      (m ((c.tc : Thread Cert.KernelIdeal.nD Cert.KernelIdeal.τ).loc Cert.KernelIdeal.main_arg3)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.BoundaryBridge.finish_eq, (hagree c).1, (hagree c).2.1, (hagree c).2.2.1, (hagree c).2.2.2]
  unfold Cert.KSpec.result
  beta_reduce
  rw [Cert.HeadBridge.rowCount_eq, Cert.HeadBridge.rowTotal_eq, Cert.BoundaryBridge.boundary_eq, Cert.MaskBridge.textMask_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
